-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S_ : Shape := ⟨0, ![]⟩

class Facts : Prop where
  bcast_S_S50000x29x64 : S_.BroadcastsInDim S50000x29x64 (![] : Fin 0 → Fin S50000x29x64.rank)
  reducesTo_S50000x29x64_S_d0_1_2 : S50000x29x64.ReducesTo [0, 1, 2] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S768x384 : S_.BroadcastsInDim S768x384 (![] : Fin 0 → Fin S768x384.rank)
  reducesTo_S768x384_S_d0_1 : S768x384.ReducesTo [0, 1] S_
  bcast_S_S640x320 : S_.BroadcastsInDim S640x320 (![] : Fin 0 → Fin S640x320.rank)
  reducesTo_S640x320_S_d0_1 : S640x320.ReducesTo [0, 1] S_

variable [Facts]

def fn_part1 {F : FTy → Type} [FloatOps F] (main_arg4 : FVec F S768x384 .f32) (main_arg5 : FVec F S640x320 .f32) (main_v13 : IVec S_ 1) (main_v16 : IVec S448 1) : IVec S_ 1 :=
  let main_c_5 : IVec S_ 1 := constantI S_ 1 1#1
  let main_v17 : IVec S_ 1 := (fun x v => Host.reduce IntOp.andi x v reducesTo_S448_S_d0 h_S_) main_v16 main_c_5
  let main_v18 : IVec S_ 1 := andi main_v13 main_v17
  let main_v19 : FVec F S768x384 .f32 := Host.absf main_arg4
  let main_cst_6 : FVec F S_ .f32 := constant S_ .f32 0x7F800000#32
  let main_v20 : FVec F S768x384 .f32 := broadcastInDim S768x384 ![] bcast_S_S768x384 main_cst_6
  let main_v21 : IVec S768x384 1 := cmpf .olt main_v19 main_v20
  let main_c_7 : IVec S_ 1 := constantI S_ 1 1#1
  let main_v22 : IVec S_ 1 := (fun x v => Host.reduce IntOp.andi x v reducesTo_S768x384_S_d0_1 h_S_) main_v21 main_c_7
  let main_v23 : IVec S_ 1 := andi main_v18 main_v22
  let main_v24 : FVec F S640x320 .f32 := Host.absf main_arg5
  let main_cst_8 : FVec F S_ .f32 := constant S_ .f32 0x7F800000#32
  let main_v25 : FVec F S640x320 .f32 := broadcastInDim S640x320 ![] bcast_S_S640x320 main_cst_8
  let main_v26 : IVec S640x320 1 := cmpf .olt main_v24 main_v25
  let main_c_9 : IVec S_ 1 := constantI S_ 1 1#1
  let main_v27 : IVec S_ 1 := (fun x v => Host.reduce IntOp.andi x v reducesTo_S640x320_S_d0_1 h_S_) main_v26 main_c_9
  let main_v28 : IVec S_ 1 := andi main_v23 main_v27
  main_v28

def fn {F : FTy → Type} [FloatOps F] (main_arg0 : FVec F S50000x29x64 .f32) (main_arg1 : FVec F S50000x1 .f32) (main_arg2 : FVec F S448x448 .f32) (main_arg3 : FVec F S448 .f32) (main_arg4 : FVec F S768x384 .f32) (main_arg5 : FVec F S640x320 .f32) : IVec S_ 1 :=
  let main_v0 : FVec F S50000x29x64 .f32 := Host.absf main_arg0
  let main_cst : FVec F S_ .f32 := constant S_ .f32 0x7F800000#32
  let main_v1 : FVec F S50000x29x64 .f32 := broadcastInDim S50000x29x64 ![] bcast_S_S50000x29x64 main_cst
  let main_v2 : IVec S50000x29x64 1 := cmpf .olt main_v0 main_v1
  let main_c : IVec S_ 1 := constantI S_ 1 1#1
  let main_v3 : IVec S_ 1 := (fun x v => Host.reduce IntOp.andi x v reducesTo_S50000x29x64_S_d0_1_2 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S448x448 .f32 := Host.absf main_arg2
  let main_cst_2 : FVec F S_ .f32 := constant S_ .f32 0x7F800000#32
  let main_v10 : FVec F S448x448 .f32 := broadcastInDim S448x448 ![] bcast_S_S448x448 main_cst_2
  let main_v11 : IVec S448x448 1 := cmpf .olt main_v9 main_v10
  let main_c_3 : IVec S_ 1 := constantI S_ 1 1#1
  let main_v12 : IVec S_ 1 := (fun x v => Host.reduce IntOp.andi x v reducesTo_S448x448_S_d0_1 h_S_) main_v11 main_c_3
  let main_v13 : IVec S_ 1 := andi main_v8 main_v12
  let main_v14 : FVec F S448 .f32 := Host.absf main_arg3
  let main_cst_4 : FVec F S_ .f32 := constant S_ .f32 0x7F800000#32
  let main_v15 : FVec F S448 .f32 := broadcastInDim S448 ![] bcast_S_S448 main_cst_4
  let main_v16 : IVec S448 1 := cmpf .olt main_v14 main_v15
  fn_part1 (F := F) main_arg4 main_arg5 main_v13 main_v16
-- ==== Kernel.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S384x768 : Shape := ⟨2, ![384, 768]⟩
abbrev S320x640 : Shape := ⟨2, ![320, 640]⟩
abbrev S1x448 : Shape := ⟨2, ![1, 448]⟩
abbrev S400x29x64 : Shape := ⟨3, ![400, 29, 64]⟩
abbrev S400x1x64 : Shape := ⟨3, ![400, 1, 64]⟩
abbrev S400x64 : Shape := ⟨2, ![400, 64]⟩
abbrev S400x448 : Shape := ⟨2, ![400, 448]⟩
abbrev S400x384 : Shape := ⟨2, ![400, 384]⟩
abbrev S400x320 : Shape := ⟨2, ![400, 320]⟩
abbrev S400x768 : Shape := ⟨2, ![400, 768]⟩
abbrev S400x640 : Shape := ⟨2, ![400, 640]⟩
abbrev S400x1856 : Shape := ⟨2, ![400, 1856]⟩

abbrev nBuf : Space → Nat
  | .hbm => 14
  | .vmem => 8
  | .smem => 0
  | _ => 0

abbrev bufTy : (tb : Table) → Fin (tcTables nBuf tb) → BufTy
  | .hbm, ⟨0, _⟩ => ⟨S50000x29x64, .f32⟩
  | .hbm, ⟨1, _⟩ => ⟨S50000x1, .f32⟩
  | .hbm, ⟨2, _⟩ => ⟨S448x448, .f32⟩
  | .hbm, ⟨3, _⟩ => ⟨S448, .f32⟩
  | .hbm, ⟨4, _⟩ => ⟨S768x384, .f32⟩
  | .hbm, ⟨5, _⟩ => ⟨S640x320, .f32⟩
  | .hbm, ⟨6, _⟩ => ⟨S448x448, .f32⟩
  | .hbm, ⟨7, _⟩ => ⟨S448x448, .bf16⟩
  | .hbm, ⟨8, _⟩ => ⟨S384x768, .f32⟩
  | .hbm, ⟨9, _⟩ => ⟨S384x768, .bf16⟩
  | .hbm, ⟨10, _⟩ => ⟨S320x640, .f32⟩
  | .hbm, ⟨11, _⟩ => ⟨S320x640, .bf16⟩
  | .hbm, ⟨12, _⟩ => ⟨S1x448, .f32⟩
  | .hbm, ⟨13, _⟩ => ⟨S50000x29x64, .f32⟩
  | .local _ .vmem, ⟨0, _⟩ => ⟨S400x29x64, .f32⟩
  | .local _ .vmem, ⟨1, _⟩ => ⟨S400x29x64, .f32⟩
  | .local _ .vmem, ⟨2, _⟩ => ⟨S448x448, .bf16⟩
  | .local _ .vmem, ⟨3, _⟩ => ⟨S1x448, .f32⟩
  | .local _ .vmem, ⟨4, _⟩ => ⟨S384x768, .bf16⟩
  | .local _ .vmem, ⟨5, _⟩ => ⟨S320x640, .bf16⟩
  | .local _ .vmem, ⟨6, _⟩ => ⟨S400x29x64, .f32⟩
  | .local _ .vmem, ⟨7, _⟩ => ⟨S400x29x64, .f32⟩
  | _, _ => ⟨S50000x29x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x29x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x29x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S448x448_S448x448_1_0 : S448x448.Transposes [1, 0] S448x448
  bitsLt_bf16_f32 : FTy.bits .bf16 < FTy.bits .f32
  transposes_S768x384_S384x768_1_0 : S768x384.Transposes [1, 0] S384x768
  transposes_S640x320_S320x640_1_0 : S640x320.Transposes [1, 0] S320x640
  shapeCasts_S448_S1x448 : S448.ShapeCasts S1x448
  inb_S400x29x64_S400x29x64_0_0_0 : ∀ a, (![0, 0, 0] : Fin 3 → Nat) a + S400x29x64.size a ≤ S400x29x64.size a
  h_S400x29x64 : 0 < S400x29x64.numel
  slices_S400x29x64_o0_0_0_S400x1x64 : S400x29x64.Slices ![0, 0, 0] S400x1x64
  shapeCasts_S400x1x64_S400x64 : S400x1x64.ShapeCasts S400x64
  slices_S400x29x64_o0_2_0_S400x1x64 : S400x29x64.Slices ![0, 2, 0] S400x1x64
  slices_S400x29x64_o0_6_0_S400x1x64 : S400x29x64.Slices ![0, 6, 0] S400x1x64
  slices_S400x29x64_o0_11_0_S400x1x64 : S400x29x64.Slices ![0, 11, 0] S400x1x64
  slices_S400x29x64_o0_16_0_S400x1x64 : S400x29x64.Slices ![0, 16, 0] S400x1x64
  slices_S400x29x64_o0_21_0_S400x1x64 : S400x29x64.Slices ![0, 21, 0] S400x1x64
  slices_S400x29x64_o0_26_0_S400x1x64 : S400x29x64.Slices ![0, 26, 0] S400x1x64
  concatenates_S400x64_S400x64_S400x64_S400x64_S400x64_S400x64_S400x64_S400x448_d1 : Shape.Concatenates [S400x64, S400x64, S400x64, S400x64, S400x64, S400x64, S400x64] S400x448 1
  slices_S400x29x64_o0_3_0_S400x1x64 : S400x29x64.Slices ![0, 3, 0] S400x1x64
  slices_S400x29x64_o0_7_0_S400x1x64 : S400x29x64.Slices ![0, 7, 0] S400x1x64
  slices_S400x29x64_o0_12_0_S400x1x64 : S400x29x64.Slices ![0, 12, 0] S400x1x64
  slices_S400x29x64_o0_17_0_S400x1x64 : S400x29x64.Slices ![0, 17, 0] S400x1x64
  slices_S400x29x64_o0_22_0_S400x1x64 : S400x29x64.Slices ![0, 22, 0] S400x1x64
  slices_S400x29x64_o0_27_0_S400x1x64 : S400x29x64.Slices ![0, 27, 0] S400x1x64
  concatenates_S400x64_S400x64_S400x64_S400x64_S400x64_S400x64_S400x384_d1 : Shape.Concatenates [S400x64, S400x64, S400x64, S400x64, S400x64, S400x64] S400x384 1
  slices_S400x29x64_o0_1_0_S400x1x64 : S400x29x64.Slices ![0, 1, 0] S400x1x64
  slices_S400x29x64_o0_5_0_S400x1x64 : S400x29x64.Slices ![0, 5, 0] S400x1x64
  slices_S400x29x64_o0_10_0_S400x1x64 : S400x29x64.Slices ![0, 10, 0] S400x1x64
  slices_S400x29x64_o0_15_0_S400x1x64 : S400x29x64.Slices ![0, 15, 0] S400x1x64
  slices_S400x29x64_o0_20_0_S400x1x64 : S400x29x64.Slices ![0, 20, 0] S400x1x64
  slices_S400x29x64_o0_25_0_S400x1x64 : S400x29x64.Slices ![0, 25, 0] S400x1x64
  slices_S400x29x64_o0_8_0_S400x1x64 : S400x29x64.Slices ![0, 8, 0] S400x1x64
  slices_S400x29x64_o0_13_0_S400x1x64 : S400x29x64.Slices ![0, 13, 0] S400x1x64
  slices_S400x29x64_o0_18_0_S400x1x64 : S400x29x64.Slices ![0, 18, 0] S400x1x64
  slices_S400x29x64_o0_23_0_S400x1x64 : S400x29x64.Slices ![0, 23, 0] S400x1x64
  slices_S400x29x64_o0_28_0_S400x1x64 : S400x29x64.Slices ![0, 28, 0] S400x1x64
  concatenates_S400x64_S400x64_S400x64_S400x64_S400x64_S400x320_d1 : Shape.Concatenates [S400x64, S400x64, S400x64, S400x64, S400x64] S400x320 1
  slices_S400x29x64_o0_4_0_S400x1x64 : S400x29x64.Slices ![0, 4, 0] S400x1x64
  slices_S400x29x64_o0_9_0_S400x1x64 : S400x29x64.Slices ![0, 9, 0] S400x1x64
  slices_S400x29x64_o0_14_0_S400x1x64 : S400x29x64.Slices ![0, 14, 0] S400x1x64
  slices_S400x29x64_o0_19_0_S400x1x64 : S400x29x64.Slices ![0, 19, 0] S400x1x64
  slices_S400x29x64_o0_24_0_S400x1x64 : S400x29x64.Slices ![0, 24, 0] S400x1x64
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S320x640_S320x640_0_0 : ∀ a, (![0, 0] : Fin 2 → Nat) a + S320x640.size a ≤ S320x640.size a
  h_S320x640 : 0 < S320x640.numel
  shapeCasts_S320x640_S320x640 : S320x640.ShapeCasts S320x640
  broadcasts_S1x448_S400x448 : S1x448.Broadcasts S400x448
  slices_S400x768_o0_0_S400x384 : S400x768.Slices ![0, 0] S400x384
  slices_S400x768_o0_384_S400x384 : S400x768.Slices ![0, 384] S400x384
  slices_S400x640_o0_0_S400x320 : S400x640.Slices ![0, 0] S400x320
  slices_S400x640_o0_320_S400x320 : S400x640.Slices ![0, 320] S400x320
  slices_S400x448_o0_0_S400x64 : S400x448.Slices ![0, 0] S400x64
  slices_S400x384_o0_0_S400x64 : S400x384.Slices ![0, 0] S400x64
  slices_S400x448_o0_64_S400x64 : S400x448.Slices ![0, 64] S400x64
  slices_S400x320_o0_0_S400x64 : S400x320.Slices ![0, 0] S400x64
  slices_S400x384_o0_64_S400x64 : S400x384.Slices ![0, 64] S400x64
  slices_S400x448_o0_128_S400x64 : S400x448.Slices ![0, 128] S400x64
  slices_S400x320_o0_64_S400x64 : S400x320.Slices ![0, 64] S400x64
  slices_S400x384_o0_128_S400x64 : S400x384.Slices ![0, 128] S400x64
  slices_S400x448_o0_192_S400x64 : S400x448.Slices ![0, 192] S400x64
  slices_S400x320_o0_128_S400x64 : S400x320.Slices ![0, 128] S400x64
  slices_S400x384_o0_192_S400x64 : S400x384.Slices ![0, 192] S400x64
  slices_S400x448_o0_256_S400x64 : S400x448.Slices ![0, 256] S400x64
  slices_S400x320_o0_192_S400x64 : S400x320.Slices ![0, 192] S400x64
  slices_S400x384_o0_256_S400x64 : S400x384.Slices ![0, 256] S400x64
  slices_S400x448_o0_320_S400x64 : S400x448.Slices ![0, 320] S400x64
  slices_S400x320_o0_256_S400x64 : S400x320.Slices ![0, 256] S400x64
  slices_S400x384_o0_320_S400x64 : S400x384.Slices ![0, 320] S400x64
  slices_S400x448_o0_384_S400x64 : S400x448.Slices ![0, 384] S400x64
  concatenates_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x1856_d1 : Shape.Concatenates [S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64] S400x1856 1
  shapeCasts_S400x1856_S400x29x64 : S400x1856.ShapeCasts S400x29x64
  dot_S400x448_S448x448_S400x448_1_0_0_1_n_n_wf : DotDims.WF S400x448 S448x448 S400x448 [1] [0] [0] [1] [] []
  dot_S400x384_S384x768_S400x768_1_0_0_1_n_n_wf : DotDims.WF S400x384 S384x768 S400x768 [1] [0] [0] [1] [] []
  dot_S400x320_S320x640_S400x640_1_0_0_1_n_n_wf : DotDims.WF S400x320 S320x640 S400x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x29x64.size a ≤ S50000x29x64.size a
  hwx0_0 : ∀ i : grid0.Coords, EltTy.bits .f32 = 32 ∨ (Rect.block (s := S50000x29x64) S400x29x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x448.size a ≤ S448x448.size a
  hwx0_1 : ∀ i : grid0.Coords, EltTy.bits .bf16 = 32 ∨ (Rect.block (s := S448x448) S448x448.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x448.size a ≤ S1x448.size a
  hwx0_2 : ∀ i : grid0.Coords, EltTy.bits .f32 = 32 ∨ (Rect.block (s := S1x448) S1x448.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x640.size a ≤ S320x640.size a
  hwx0_4 : ∀ i : grid0.Coords, EltTy.bits .bf16 = 32 ∨ (Rect.block (s := S320x640) S320x640.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x29x64.size a ≤ S50000x29x64.size a
  hwx0_5 : ∀ i : grid0.Coords, EltTy.bits .f32 = 32 ∨ (Rect.block (s := S50000x29x64) S400x29x64.size (cc0_transform_5 i) (hinb0_5 i)).WholeWords (EltTy.packing .f32)

variable [Facts₀]

def dot_S400x448_S448x448_S400x448_1_0_0_1_n_n : DotDims S400x448 S448x448 S400x448 where
  lhsContracting := [1]
  rhsContracting := [0]
  lhsNonContracting := [0]
  rhsNonContracting := [1]
  lhsBatch := []
  rhsBatch := []
  wf := dot_S400x448_S448x448_S400x448_1_0_0_1_n_n_wf
def dot_S400x384_S384x768_S400x768_1_0_0_1_n_n : DotDims S400x384 S384x768 S400x768 where
  lhsContracting := [1]
  rhsContracting := [0]
  lhsNonContracting := [0]
  rhsNonContracting := [1]
  lhsBatch := []
  rhsBatch := []
  wf := dot_S400x384_S384x768_S400x768_1_0_0_1_n_n_wf
def dot_S400x320_S320x640_S400x640_1_0_0_1_n_n : DotDims S400x320 S320x640 S400x640 where
  lhsContracting := [1]
  rhsContracting := [0]
  lhsNonContracting := [0]
  rhsNonContracting := [1]
  lhsBatch := []
  rhsBatch := []
  wf := dot_S400x320_S320x640_S400x640_1_0_0_1_n_n_wf

abbrev win0_0 : Pipeline.Window sig grid0 :=
  Pipeline.Window.ofSpec (Memref.whole main_arg0) S400x29x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S448x448.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S320x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S400x29x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S29 : Shape := ⟨1, ![29]⟩
abbrev S_ : Shape := ⟨0, ![]⟩
abbrev S29x1 : Shape := ⟨2, ![29, 1]⟩
abbrev S50000x7x64 : Shape := ⟨3, ![50000, 7, 64]⟩
abbrev S50000x448 : Shape := ⟨2, ![50000, 448]⟩
abbrev S1x448 : Shape := ⟨2, ![1, 448]⟩
abbrev S50000x12x64 : Shape := ⟨3, ![50000, 12, 64]⟩
abbrev S50000x2x384 : Shape := ⟨3, ![50000, 2, 384]⟩
abbrev S50000x2x768 : Shape := ⟨3, ![50000, 2, 768]⟩
abbrev S50000x1x384 : Shape := ⟨3, ![50000, 1, 384]⟩
abbrev S50000x10x64 : Shape := ⟨3, ![50000, 10, 64]⟩
abbrev S50000x2x320 : Shape := ⟨3, ![50000, 2, 320]⟩
abbrev S50000x2x640 : Shape := ⟨3, ![50000, 2, 640]⟩
abbrev S50000x1x320 : Shape := ⟨3, ![50000, 1, 320]⟩

abbrev nBuf : Space → Nat
  | .hbm => 57
  | .vmem => 0
  | .smem => 0
  | _ => 0

abbrev bufTy : (tb : Table) → Fin (tcTables nBuf tb) → BufTy
  | .hbm, ⟨0, _⟩ => ⟨S50000x29x64, .f32⟩
  | .hbm, ⟨1, _⟩ => ⟨S50000x1, .f32⟩
  | .hbm, ⟨2, _⟩ => ⟨S448x448, .f32⟩
  | .hbm, ⟨3, _⟩ => ⟨S448, .f32⟩
  | .hbm, ⟨4, _⟩ => ⟨S768x384, .f32⟩
  | .hbm, ⟨5, _⟩ => ⟨S640x320, .f32⟩
  | .hbm, ⟨6, _⟩ => ⟨S29, .i32⟩
  | .hbm, ⟨7, _⟩ => ⟨S29, .i1⟩
  | .hbm, ⟨8, _⟩ => ⟨S29, .i32⟩
  | .hbm, ⟨9, _⟩ => ⟨S29, .i1⟩
  | .hbm, ⟨10, _⟩ => ⟨S_, .i32⟩
  | .hbm, ⟨11, _⟩ => ⟨S29, .i32⟩
  | .hbm, ⟨12, _⟩ => ⟨S29, .i32⟩
  | .hbm, ⟨13, _⟩ => ⟨S29, .i32⟩
  | .hbm, ⟨14, _⟩ => ⟨S29x1, .i32⟩
  | .hbm, ⟨15, _⟩ => ⟨S50000x29x64, .f32⟩
  | .hbm, ⟨16, _⟩ => ⟨S50000x7x64, .f32⟩
  | .hbm, ⟨17, _⟩ => ⟨S50000x448, .f32⟩
  | .hbm, ⟨18, _⟩ => ⟨S448x448, .f32⟩
  | .hbm, ⟨19, _⟩ => ⟨S50000x448, .f32⟩
  | .hbm, ⟨20, _⟩ => ⟨S1x448, .f32⟩
  | .hbm, ⟨21, _⟩ => ⟨S50000x448, .f32⟩
  | .hbm, ⟨22, _⟩ => ⟨S50000x448, .f32⟩
  | .hbm, ⟨23, _⟩ => ⟨S50000x7x64, .f32⟩
  | .hbm, ⟨24, _⟩ => ⟨S50000x12x64, .f32⟩
  | .hbm, ⟨25, _⟩ => ⟨S50000x2x384, .f32⟩
  | .hbm, ⟨26, _⟩ => ⟨S50000x2x768, .f32⟩
  | .hbm, ⟨27, _⟩ => ⟨S50000x2x384, .f32⟩
  | .hbm, ⟨28, _⟩ => ⟨S50000x2x384, .f32⟩
  | .hbm, ⟨29, _⟩ => ⟨S50000x1x384, .f32⟩
  | .hbm, ⟨30, _⟩ => ⟨S50000x1x384, .f32⟩
  | .hbm, ⟨31, _⟩ => ⟨S50000x1x384, .f32⟩
  | .hbm, ⟨32, _⟩ => ⟨S50000x1x384, .f32⟩
  | .hbm, ⟨33, _⟩ => ⟨S50000x1x384, .f32⟩
  | .hbm, ⟨34, _⟩ => ⟨S50000x1x384, .f32⟩
  | .hbm, ⟨35, _⟩ => ⟨S50000x2x384, .f32⟩
  | .hbm, ⟨36, _⟩ => ⟨S50000x12x64, .f32⟩
  | .hbm, ⟨37, _⟩ => ⟨S50000x10x64, .f32⟩
  | .hbm, ⟨38, _⟩ => ⟨S50000x2x320, .f32⟩
  | .hbm, ⟨39, _⟩ => ⟨S50000x2x640, .f32⟩
  | .hbm, ⟨40, _⟩ => ⟨S50000x2x320, .f32⟩
  | .hbm, ⟨41, _⟩ => ⟨S50000x2x320, .f32⟩
  | .hbm, ⟨42, _⟩ => ⟨S50000x1x320, .f32⟩
  | .hbm, ⟨43, _⟩ => ⟨S50000x1x320, .f32⟩
  | .hbm, ⟨44, _⟩ => ⟨S50000x1x320, .f32⟩
  | .hbm, ⟨45, _⟩ => ⟨S50000x1x320, .f32⟩
  | .hbm, ⟨46, _⟩ => ⟨S50000x1x320, .f32⟩
  | .hbm, ⟨47, _⟩ => ⟨S50000x1x320, .f32⟩
  | .hbm, ⟨48, _⟩ => ⟨S50000x2x320, .f32⟩
  | .hbm, ⟨49, _⟩ => ⟨S50000x10x64, .f32⟩
  | .hbm, ⟨50, _⟩ => ⟨S50000x29x64, .f32⟩
  | .hbm, ⟨51, _⟩ => ⟨S_, .i32⟩
  | .hbm, ⟨52, _⟩ => ⟨S29, .i32⟩
  | .hbm, ⟨53, _⟩ => ⟨S29, .i32⟩
  | .hbm, ⟨54, _⟩ => ⟨S29, .i32⟩
  | .hbm, ⟨55, _⟩ => ⟨S29x1, .i32⟩
  | .hbm, ⟨56, _⟩ => ⟨S50000x29x64, .f32⟩
  | _, _ => ⟨S50000x29x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  bcast_S_S29 : S_.BroadcastsInDim S29 (![] : Fin 0 → Fin S29.rank)
  bcast_S29_S29x1_0 : S29.BroadcastsInDim S29x1 (![0] : Fin 1 → Fin S29x1.rank)
  slices_S50000x29x64_S50000x7x64_0_0_0 : S50000x29x64.Slices ![0, 0, 0] S50000x7x64
  shapeCasts_S50000x7x64_S50000x448 : S50000x7x64.ShapeCasts S50000x448
  transposes_S448x448_S448x448_1_0 : S448x448.Transposes [1, 0] S448x448
  bcast_S448_S1x448_1 : S448.BroadcastsInDim S1x448 (![1] : Fin 1 → Fin S1x448.rank)
  bcast_S1x448_S50000x448_0_1 : S1x448.BroadcastsInDim S50000x448 (![0, 1] : Fin 2 → Fin S50000x448.rank)
  shapeCasts_S50000x448_S50000x7x64 : S50000x448.ShapeCasts S50000x7x64
  slices_S50000x29x64_S50000x12x64_0_7_0 : S50000x29x64.Slices ![0, 7, 0] S50000x12x64
  shapeCasts_S50000x12x64_S50000x2x384 : S50000x12x64.ShapeCasts S50000x2x384
  slices_S50000x2x768_S50000x2x384_0_0_0 : S50000x2x768.Slices ![0, 0, 0] S50000x2x384
  slices_S50000x2x768_S50000x2x384_0_0_384 : S50000x2x768.Slices ![0, 0, 384] S50000x2x384
  slices_S50000x2x384_S50000x1x384_0_0_0 : S50000x2x384.Slices ![0, 0, 0] S50000x1x384
  slices_S50000x2x384_S50000x1x384_0_1_0 : S50000x2x384.Slices ![0, 1, 0] S50000x1x384
  concatenates_S50000x1x384_S50000x1x384_S50000x2x384_d1 : Shape.Concatenates [S50000x1x384, S50000x1x384] S50000x2x384 1
  shapeCasts_S50000x2x384_S50000x12x64 : S50000x2x384.ShapeCasts S50000x12x64
  slices_S50000x29x64_S50000x10x64_0_19_0 : S50000x29x64.Slices ![0, 19, 0] S50000x10x64
  shapeCasts_S50000x10x64_S50000x2x320 : S50000x10x64.ShapeCasts S50000x2x320
  slices_S50000x2x640_S50000x2x320_0_0_0 : S50000x2x640.Slices ![0, 0, 0] S50000x2x320
  slices_S50000x2x640_S50000x2x320_0_0_320 : S50000x2x640.Slices ![0, 0, 320] S50000x2x320
  slices_S50000x2x320_S50000x1x320_0_0_0 : S50000x2x320.Slices ![0, 0, 0] S50000x1x320
  slices_S50000x2x320_S50000x1x320_0_1_0 : S50000x2x320.Slices ![0, 1, 0] S50000x1x320
  concatenates_S50000x1x320_S50000x1x320_S50000x2x320_d1 : Shape.Concatenates [S50000x1x320, S50000x1x320] S50000x2x320 1
  shapeCasts_S50000x2x320_S50000x10x64 : S50000x2x320.ShapeCasts S50000x10x64
  concatenates_S50000x7x64_S50000x12x64_S50000x10x64_S50000x29x64_d1 : Shape.Concatenates [S50000x7x64, S50000x12x64, S50000x10x64] S50000x29x64 1
  gather_S50000x29x64_S29x1_S50000x29x64_02_1_n_n_1_1_50000164_wf : GatherDims.WF S50000x29x64 S29x1 S50000x29x64 [0, 2] [1] [] [1] [] 1 ![50000, 1, 64]
  dot_S50000x448_S448x448_S50000x448_1_0_0_1_n_n_wf : DotDims.WF S50000x448 S448x448 S50000x448 [1] [0] [0] [1] [] []
  dot_S50000x2x384_S768x384_S50000x2x768_2_1_01_0_n_n_wf : DotDims.WF S50000x2x384 S768x384 S50000x2x768 [2] [1] [0, 1] [0] [] []
  dot_S50000x2x320_S640x320_S50000x2x640_2_1_01_0_n_n_wf : DotDims.WF S50000x2x320 S640x320 S50000x2x640 [2] [1] [0, 1] [0] [] []

variable [Facts₀]

def gather_S50000x29x64_S29x1_S50000x29x64_02_1_n_n_1_1_50000164 : GatherDims S50000x29x64 S29x1 S50000x29x64 where
  offsetDims := [0, 2]
  collapsedSliceDims := [1]
  operandBatchingDims := []
  startIndicesBatchingDims := []
  startIndexMap := [1]
  indexVectorDim := 1
  sliceSizes := ![50000, 1, 64]
  wf := gather_S50000x29x64_S29x1_S50000x29x64_02_1_n_n_1_1_50000164_wf
def dot_S50000x448_S448x448_S50000x448_1_0_0_1_n_n : DotDims S50000x448 S448x448 S50000x448 where
  lhsContracting := [1]
  rhsContracting := [0]
  lhsNonContracting := [0]
  rhsNonContracting := [1]
  lhsBatch := []
  rhsBatch := []
  wf := dot_S50000x448_S448x448_S50000x448_1_0_0_1_n_n_wf
def dot_S50000x2x384_S768x384_S50000x2x768_2_1_01_0_n_n : DotDims S50000x2x384 S768x384 S50000x2x768 where
  lhsContracting := [2]
  rhsContracting := [1]
  lhsNonContracting := [0, 1]
  rhsNonContracting := [0]
  lhsBatch := []
  rhsBatch := []
  wf := dot_S50000x2x384_S768x384_S50000x2x768_2_1_01_0_n_n_wf
def dot_S50000x2x320_S640x320_S50000x2x640_2_1_01_0_n_n : DotDims S50000x2x320 S640x320 S50000x2x640 where
  lhsContracting := [2]
  rhsContracting := [1]
  lhsNonContracting := [0, 1]
  rhsNonContracting := [0]
  lhsBatch := []
  rhsBatch := []
  wf := dot_S50000x2x320_S640x320_S50000x2x640_2_1_01_0_n_n_wf

class Facts : Prop extends Facts₀ where

variable [Facts]
-- ==== Proof.Spec.lean ====
/-
  The function both programs compute, index by index, over the extended reals.

  An edge `e` carries 29 coefficient rows of 64 channels, stored in l-primary order. Reordered to m-primary order
  (position `p` holds the l-primary row `toM p`) they fall into five runs of rows: 7 rows with m = 0, then 6 "real" and
  6 "imaginary" rows with m = 1, then 5 and 5 with m = 2. Each run, flattened to one vector of 64 · (rows) entries
  (`seg`), is multiplied by a weight matrix (`dotSeg`: entry `o` is the sum over `k` of the flattened entry `k` times
  `W (o, k)`). The m = 0 run gets the bias added (`gA`); for m = 1 and m = 2 the products of the real run `r` and the
  imaginary run `i` against the two halves `W = [Wa; Wb]` combine as a complex product, real part `r·Wa − i·Wb`
  (`gB`, `gD`) and imaginary part `i·Wa + r·Wb` (`gC`, `gE`). The result row at l-primary position `j` is the m-primary
  row `fromM j` (`fromM` is the inverse permutation of `toM`), 64 output channels per row.

  Only sums, products, one addition and one subtraction per entry: no law that needs finite values is involved.
-/
import Idealize.ShloMosaic.Lib.ValueIdx
import Idealize.ShloMosaic.PureOps.Ideal

noncomputable section

namespace Cert.Spec

open Idealize.ShloMosaic Idealize.ShloMosaic.ValueIdx

/-- The m-primary order: position `p` holds l-primary row `toM p`. -/
def toM : Fin 29 → Fin 29 :=
  ![0, 2, 6, 11, 16, 21, 26, 3, 7, 12, 17, 22, 27, 1, 5, 10, 15, 20, 25, 8, 13, 18, 23, 28, 4, 9, 14, 19, 24]

/-- Back to l-primary order: result row `j` is m-primary row `fromM j`. -/
def fromM : Fin 29 → Fin 29 :=
  ![0, 13, 1, 7, 24, 14, 2, 8, 19, 25, 15, 3, 9, 20, 26, 16, 4, 10, 21, 27, 17, 5, 11, 22, 28, 18, 6, 12, 23]

variable {E : Nat}

/-- Entry `k` of the m-primary rows `base, base + 1, …` of edge `e` flattened to one vector: row `base + k / 64`,
    channel `k % 64`. -/
def seg (X : FVec Ideal ⟨3, ![E, 29, 64]⟩ .f32) (e : Fin E) (base K : Nat) (h : base * 64 + K ≤ 1856) (k : Fin K) : EReal :=
  X (ix3 e (toM ⟨base + k.val / 64, by omega⟩) ⟨k.val % 64, by omega⟩)

/-- That flattened run times row `o` of a weight matrix `W : [O, K]`. -/
def dotSeg {O K : Nat} (X : FVec Ideal ⟨3, ![E, 29, 64]⟩ .f32) (W : FVec Ideal ⟨2, ![O, K]⟩ .f32) (e : Fin E) (base : Nat)
    (h : base * 64 + K ≤ 1856) (o : Fin O) : EReal :=
  ∑ k : Fin K, seg X e base K h k * W (ix2 o k)

variable (X : FVec Ideal ⟨3, ![E, 29, 64]⟩ .f32) (W0 : FVec Ideal ⟨2, ![448, 448]⟩ .f32) (b0 : FVec Ideal ⟨1, ![448]⟩ .f32)
  (W1 : FVec Ideal ⟨2, ![768, 384]⟩ .f32) (W2 : FVec Ideal ⟨2, ![640, 320]⟩ .f32)

/-- m = 0: row `q` of the 7, channel `c`: the product with `W0` plus the bias. -/
def gA (e : Fin E) (q : Fin 7) (c : Fin 64) : EReal :=
  dotSeg X W0 e 0 (by omega) (⟨64 * q.val + c.val, by omega⟩ : Fin 448) + b0 (ix1 ⟨64 * q.val + c.val, by omega⟩)

/-- m = 1, real part: row `q` of the 6. -/
def gB (e : Fin E) (q : Fin 6) (c : Fin 64) : EReal :=
  dotSeg X W1 e 7 (K := 384) (by omega) (⟨64 * q.val + c.val, by omega⟩ : Fin 768)
    - dotSeg X W1 e 13 (K := 384) (by omega) (⟨384 + (64 * q.val + c.val), by omega⟩ : Fin 768)

/-- m = 1, imaginary part: row `q` of the 6. -/
def gC (e : Fin E) (q : Fin 6) (c : Fin 64) : EReal :=
  dotSeg X W1 e 13 (K := 384) (by omega) (⟨64 * q.val + c.val, by omega⟩ : Fin 768)
    + dotSeg X W1 e 7 (K := 384) (by omega) (⟨384 + (64 * q.val + c.val), by omega⟩ : Fin 768)

/-- m = 2, real part: row `q` of the 5. -/
def gD (e : Fin E) (q : Fin 5) (c : Fin 64) : EReal :=
  dotSeg X W2 e 19 (K := 320) (by omega) (⟨64 * q.val + c.val, by omega⟩ : Fin 640)
    - dotSeg X W2 e 24 (K := 320) (by omega) (⟨320 + (64 * q.val + c.val), by omega⟩ : Fin 640)

/-- m = 2, imaginary part: row `q` of the 5. -/
def gE (e : Fin E) (q : Fin 5) (c : Fin 64) : EReal :=
  dotSeg X W2 e 24 (K := 320) (by omega) (⟨64 * q.val + c.val, by omega⟩ : Fin 640)
    + dotSeg X W2 e 19 (K := 320) (by omega) (⟨320 + (64 * q.val + c.val), by omega⟩ : Fin 640)

/-- The m-primary result: row `p` of the 29, channel `c`. -/
def mOut (e : Fin E) (p : Fin 29) (c : Fin 64) : EReal :=
  if h0 : p.val < 7 then gA X W0 b0 e ⟨p.val, h0⟩ c
  else if h1 : p.val < 13 then gB X W1 e ⟨p.val - 7, by omega⟩ c
  else if h2 : p.val < 19 then gC X W1 e ⟨p.val - 13, by omega⟩ c
  else if h3 : p.val < 24 then gD X W2 e ⟨p.val - 19, by omega⟩ c
  else gE X W2 e ⟨p.val - 24, by omega⟩ c

/-- The result at edge `e`, l-primary row `j`, channel `c`. -/
def Gat (e : Fin E) (j : Fin 29) (c : Fin 64) : EReal :=
  mOut X W0 b0 W1 W2 e (fromM j) c

/-- The result array. -/
def G : FVec Ideal ⟨3, ![E, 29, 64]⟩ .f32 :=
  fun y => Gat X W0 b0 W1 W2 (y 0) (y 1) (y 2)

theorem G_ix3 (e : Fin E) (j : Fin 29) (c : Fin 64) : G X W0 b0 W1 W2 (ix3 e j c) = Gat X W0 b0 W1 W2 e j c := rfl

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelMid.lean ====
/-
  The kernel body's five matrix products, read at an entry.

  Over VARIABLES: `P0` a block of 400 edges' coefficient rows (row `r` is edge `base + r` of the array `X`), `P1`, `P3`,
  `P4` the weight matrices as the kernel is handed them (transposed: entry `(k, o)` is `W (o, k)`), `P2` the bias as a
  one-row matrix. The body gathers the m = 0 rows, the m = 1 real and imaginary rows and the m = 2 real and imaginary rows
  of each edge into five flat vectors (by slices at the literal l-primary rows, concatenated along the lanes) and
  multiplies each by its weight matrix into a zero accumulator; the change of format to bf16 before each product is the
  identity on extended reals. Each product at `(r, o)` is the specification's `dotSeg` at edge `base + r`, the run's
  first m-primary row, and weight row `o`; the m = 0 product has the bias added.
-/
import proofs.«144405_j70824010711660_1_alg».proof.Proof.KernelIdealValueP
import proofs.«144405_j70824010711660_1_alg».proof.Proof.Spec
import proofs.«144405_j70824010711660_1_alg».proof.Proof.LibPlainDot

noncomputable section

namespace Cert.KernelIdeal.Mid

open Cert.KernelIdeal Cert.KernelIdeal.Gen Idealize.ShloMosaic Idealize.ShloMosaic.ValueIdx Cert.Spec

/-! ## One l-primary row of every edge -/

/-- Row `L` of the 29, of every edge and every channel, is a block of the array of coefficient rows. -/
theorem slices_row (L : Fin 29) : S400x29x64.Slices ![0, L.val, 0] S400x1x64 :=
  ⟨rfl, fun a => match a with
    | ⟨0, _⟩ => by show 0 + 400 ≤ 400; omega
    | ⟨1, _⟩ => by have := L.isLt; show L.val + 1 ≤ 29; omega
    | ⟨2, _⟩ => by show 0 + 64 ≤ 64; omega⟩

/-- l-primary row `L` of every edge of the block, as a 400 × 64 matrix: the slice at row `L` with its unit axis dropped. -/
abbrev rowMat (P0 : Vec Ideal S400x29x64 .f32) (L : Fin 29) : FVec Ideal S400x64 .f32 :=
  shapeCast S400x64 (extractStridedSlice S400x1x64 ![0, L.val, 0] P0 (slices_row L)) shapeCasts_S400x1x64_S400x64

/-- Its entry `(r, c)` is the block's entry `(r, L, c)`: the two row-major positions agree, and the slice shifts the
    middle coordinate by `L`. -/
theorem rowMat_apply (P0 : Vec Ideal S400x29x64 .f32) (L : Fin 29) (r : Fin 400) (c : Fin 64) :
    rowMat P0 L (ix2 r c) = P0 (ix3 r L c) := by
  have hr := r.isLt
  have hc := c.isLt
  have hL := L.isLt
  refine (shapeCast_apply _ _ (ix2 r c) (ix3 r (0 : Fin 1) c) ?_).trans ?_
  · rw [Shape.rowMajor_val_two, Shape.rowMajor_val_three]
    show (r.val * 1 + 0) * 64 + c.val = r.val * 64 + c.val
    omega
  · refine extractStridedSlice_apply _ _ _ _ (ix3 r L c) fun a => ?_
    match a with
    | ⟨0, _⟩ => show r.val = 0 + r.val; omega
    | ⟨1, _⟩ => show L.val = L.val + 0; omega
    | ⟨2, _⟩ => show c.val = 0 + c.val; omega

/-! ## The five gathered runs at an entry

Each run is the concatenation along the lanes of `N` such row matrices, the rows being the m-primary rows
`first, first + 1, …` (the literal l-primary rows the body slices at are `toM` at those positions), so its entry
`(r, k)` is row matrix `k / 64` at `(r, k % 64)`. -/

/-- The m = 0 run: m-primary rows 0 to 6. -/
theorem run0_apply (P0 : Vec Ideal S400x29x64 .f32) (r : Fin 400) (k : Fin 448) :
    k0_pay2 (F := Ideal) P0 (ix2 r k) = P0 (ix3 r (toM ⟨0 + k.val / 64, by omega⟩) ⟨k.val % 64, by omega⟩) := by
  have hk := k.isLt
  show concatenate S400x448 1 (List.ofFn fun n : Fin 7 => (⟨S400x64, rowMat P0 (toM ⟨0 + n.val, by omega⟩)⟩ : (s : Shape) × (s.Idx → EReal)))
    concatenates_S400x64_S400x64_S400x64_S400x64_S400x64_S400x64_S400x64_S400x448_d1 (ix2 r k) = _
  refine (concatenate_ofFn_apply (t := S400x448) (s₁ := S400x64) (1 : Fin 2) (fun n : Fin 7 => rowMat P0 (toM ⟨0 + n.val, by omega⟩)) _ rfl 64 rfl
    (ix2 r k) ⟨k.val / 64, by omega⟩ rfl (ix2 r ⟨k.val % 64, by omega⟩) rfl (fun b hb => ?_)).trans ?_
  · match b with
    | ⟨0, _⟩ => rfl
    | ⟨1, _⟩ => exact absurd rfl hb
  · exact rowMat_apply P0 _ r _

/-- The m = 1 real run: m-primary rows 7 to 12. -/
theorem run1r_apply (P0 : Vec Ideal S400x29x64 .f32) (r : Fin 400) (k : Fin 384) :
    k0_pay3 (F := Ideal) P0 (ix2 r k) = P0 (ix3 r (toM ⟨7 + k.val / 64, by omega⟩) ⟨k.val % 64, by omega⟩) := by
  have hk := k.isLt
  show concatenate S400x384 1 (List.ofFn fun n : Fin 6 => (⟨S400x64, rowMat P0 (toM ⟨7 + n.val, by omega⟩)⟩ : (s : Shape) × (s.Idx → EReal)))
    concatenates_S400x64_S400x64_S400x64_S400x64_S400x64_S400x64_S400x384_d1 (ix2 r k) = _
  refine (concatenate_ofFn_apply (t := S400x384) (s₁ := S400x64) (1 : Fin 2) (fun n : Fin 6 => rowMat P0 (toM ⟨7 + n.val, by omega⟩)) _ rfl 64 rfl
    (ix2 r k) ⟨k.val / 64, by omega⟩ rfl (ix2 r ⟨k.val % 64, by omega⟩) rfl (fun b hb => ?_)).trans ?_
  · match b with
    | ⟨0, _⟩ => rfl
    | ⟨1, _⟩ => exact absurd rfl hb
  · exact rowMat_apply P0 _ r _

/-- The m = 1 imaginary run: m-primary rows 13 to 18. -/
theorem run1i_apply (P0 : Vec Ideal S400x29x64 .f32) (r : Fin 400) (k : Fin 384) :
    k0_pay4 (F := Ideal) P0 (ix2 r k) = P0 (ix3 r (toM ⟨13 + k.val / 64, by omega⟩) ⟨k.val % 64, by omega⟩) := by
  have hk := k.isLt
  show concatenate S400x384 1 (List.ofFn fun n : Fin 6 => (⟨S400x64, rowMat P0 (toM ⟨13 + n.val, by omega⟩)⟩ : (s : Shape) × (s.Idx → EReal)))
    concatenates_S400x64_S400x64_S400x64_S400x64_S400x64_S400x64_S400x384_d1 (ix2 r k) = _
  refine (concatenate_ofFn_apply (t := S400x384) (s₁ := S400x64) (1 : Fin 2) (fun n : Fin 6 => rowMat P0 (toM ⟨13 + n.val, by omega⟩)) _ rfl 64 rfl
    (ix2 r k) ⟨k.val / 64, by omega⟩ rfl (ix2 r ⟨k.val % 64, by omega⟩) rfl (fun b hb => ?_)).trans ?_
  · match b with
    | ⟨0, _⟩ => rfl
    | ⟨1, _⟩ => exact absurd rfl hb
  · exact rowMat_apply P0 _ r _

/-- The m = 2 real run: m-primary rows 19 to 23. -/
theorem run2r_apply (P0 : Vec Ideal S400x29x64 .f32) (r : Fin 400) (k : Fin 320) :
    k0_pay5 (F := Ideal) P0 (ix2 r k) = P0 (ix3 r (toM ⟨19 + k.val / 64, by omega⟩) ⟨k.val % 64, by omega⟩) := by
  have hk := k.isLt
  show concatenate S400x320 1 (List.ofFn fun n : Fin 5 => (⟨S400x64, rowMat P0 (toM ⟨19 + n.val, by omega⟩)⟩ : (s : Shape) × (s.Idx → EReal)))
    concatenates_S400x64_S400x64_S400x64_S400x64_S400x64_S400x320_d1 (ix2 r k) = _
  refine (concatenate_ofFn_apply (t := S400x320) (s₁ := S400x64) (1 : Fin 2) (fun n : Fin 5 => rowMat P0 (toM ⟨19 + n.val, by omega⟩)) _ rfl 64 rfl
    (ix2 r k) ⟨k.val / 64, by omega⟩ rfl (ix2 r ⟨k.val % 64, by omega⟩) rfl (fun b hb => ?_)).trans ?_
  · match b with
    | ⟨0, _⟩ => rfl
    | ⟨1, _⟩ => exact absurd rfl hb
  · exact rowMat_apply P0 _ r _

/-- The m = 2 imaginary run, m-primary rows 24 to 28, which the body gathers inside the product's payload. -/
abbrev run2i (P0 : Vec Ideal S400x29x64 .f32) : FVec Ideal S400x320 .f32 :=
  concatenate S400x320 1 (List.ofFn fun n : Fin 5 => (⟨S400x64, rowMat P0 (toM ⟨24 + n.val, by omega⟩)⟩ : (s : Shape) × (s.Idx → EReal)))
    concatenates_S400x64_S400x64_S400x64_S400x64_S400x64_S400x320_d1

theorem run2i_apply (P0 : Vec Ideal S400x29x64 .f32) (r : Fin 400) (k : Fin 320) :
    run2i P0 (ix2 r k) = P0 (ix3 r (toM ⟨24 + k.val / 64, by omega⟩) ⟨k.val % 64, by omega⟩) := by
  have hk := k.isLt
  refine (concatenate_ofFn_apply (t := S400x320) (s₁ := S400x64) (1 : Fin 2) (fun n : Fin 5 => rowMat P0 (toM ⟨24 + n.val, by omega⟩)) _ rfl 64 rfl
    (ix2 r k) ⟨k.val / 64, by omega⟩ rfl (ix2 r ⟨k.val % 64, by omega⟩) rfl (fun b hb => ?_)).trans ?_
  · match b with
    | ⟨0, _⟩ => rfl
    | ⟨1, _⟩ => exact absurd rfl hb
  · exact rowMat_apply P0 _ r _

/-! ## The products -/

/-- A product with the plain dimension numbers into the zero accumulator, its right operand passed through a shape cast
    to its own shape, at entry `(r, o)`. -/
theorem plain_mm {M K N : Nat} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (h : (⟨2, ![K, N]⟩ : Shape).ShapeCasts ⟨2, ![K, N]⟩)
    (r : Fin M) (o : Fin N) :
    matmul d none lhs (shapeCast ⟨2, ![K, N]⟩ rhs h) (constant ⟨2, ![M, N]⟩ .f32 0x00000000#32) (ix2 r o)
      = ∑ k : Fin K, lhs (ix2 r k) * rhs (ix2 k o) := by
  subst hd
  rw [shapeCast_self]
  exact Cert.Lib.PlainDot.matmul_zero_apply none lhs rhs r o

variable {E : Nat} (X : FVec Ideal ⟨3, ![E, 29, 64]⟩ .f32) (W0 : FVec Ideal ⟨2, ![448, 448]⟩ .f32)
  (b0 : FVec Ideal ⟨1, ![448]⟩ .f32) (W1 : FVec Ideal ⟨2, ![768, 384]⟩ .f32) (W2 : FVec Ideal ⟨2, ![640, 320]⟩ .f32)
  (P0 : Vec Ideal S400x29x64 .f32) (P1 : Vec Ideal S448x448 .bf16) (P2 : Vec Ideal S1x448 .f32)
  (P3 : Vec Ideal S384x768 .bf16) (P4 : Vec Ideal S320x640 .bf16)
  (base : Nat) (hbase : base + 400 ≤ E)
  (hP0 : ∀ (r : Fin 400) (p : Fin 29) (c : Fin 64), P0 (ix3 r p c) = X (ix3 ⟨base + r.val, by omega⟩ p c))
include hP0

/-- m = 0: the 7 rows times `W0ᵀ`, plus the bias. -/
theorem out0_apply (hP1 : ∀ (k o : Fin 448), P1 (ix2 k o) = W0 (ix2 o k))
    (hP2 : ∀ o : Fin 448, P2 (ix2 (0 : Fin 1) o) = b0 (ix1 o)) (r : Fin 400) (o : Fin 448) :
    k0_pay8 (F := Ideal) (k0_pay2 P0) P1 P2 (ix2 r o)
      = dotSeg X W0 ⟨base + r.val, by omega⟩ 0 (by omega) o + b0 (ix1 o) := by
  show matmul dot_S400x448_S448x448_S400x448_1_0_0_1_n_n none (k0_pay2 P0) (shapeCast S448x448 P1 shapeCasts_S448x448_S448x448)
      (constant S400x448 .f32 0x00000000#32) (ix2 r o)
    + broadcastTo S400x448 (shapeCast S1x448 P2 shapeCasts_S1x448_S1x448) broadcasts_S1x448_S400x448 (ix2 r o) = _
  refine congrArg₂ (· + ·) ?_ ?_
  · refine (plain_mm _ rfl (k0_pay2 P0) P1 _ r o).trans ?_
    unfold dotSeg seg
    exact Finset.sum_congr rfl fun k _ => by rw [run0_apply, hP0, hP1]
  · rw [shapeCast_self]
    refine (broadcastTo_apply _ _ (ix2 r o) (ix2 (0 : Fin 1) o) fun a => ?_).trans (hP2 o)
    match a with
    | ⟨0, _⟩ => rfl
    | ⟨1, _⟩ => rfl

/-- m = 1, the real rows (m-primary rows 7 to 12) times `W1ᵀ`. -/
theorem y0m1_apply (hP3 : ∀ (k : Fin 384) (o : Fin 768), P3 (ix2 k o) = W1 (ix2 o k)) (r : Fin 400) (o : Fin 768) :
    k0_pay9 (F := Ideal) (k0_pay3 P0) P3 (ix2 r o) = dotSeg X W1 ⟨base + r.val, by omega⟩ 7 (K := 384) (by omega) o := by
  refine (plain_mm dot_S400x384_S384x768_S400x768_1_0_0_1_n_n rfl (k0_pay3 P0) P3 shapeCasts_S384x768_S384x768 r o).trans ?_
  unfold dotSeg seg
  exact Finset.sum_congr rfl fun k _ => by rw [run1r_apply, hP0, hP3]

/-- m = 1, the imaginary rows (m-primary rows 13 to 18) times `W1ᵀ`. -/
theorem y1m1_apply (hP3 : ∀ (k : Fin 384) (o : Fin 768), P3 (ix2 k o) = W1 (ix2 o k)) (r : Fin 400) (o : Fin 768) :
    k0_pay10 (F := Ideal) (k0_pay4 P0) P3 (ix2 r o) = dotSeg X W1 ⟨base + r.val, by omega⟩ 13 (K := 384) (by omega) o := by
  refine (plain_mm dot_S400x384_S384x768_S400x768_1_0_0_1_n_n rfl (k0_pay4 P0) P3 shapeCasts_S384x768_S384x768 r o).trans ?_
  unfold dotSeg seg
  exact Finset.sum_congr rfl fun k _ => by rw [run1i_apply, hP0, hP3]

/-- m = 2, the real rows (m-primary rows 19 to 23) times `W2ᵀ`. -/
theorem y0m2_apply (hP4 : ∀ (k : Fin 320) (o : Fin 640), P4 (ix2 k o) = W2 (ix2 o k)) (r : Fin 400) (o : Fin 640) :
    k0_pay13 (F := Ideal) (k0_pay5 P0) P4 (ix2 r o) = dotSeg X W2 ⟨base + r.val, by omega⟩ 19 (K := 320) (by omega) o := by
  refine (plain_mm (φ₁ := .bf16) dot_S400x320_S320x640_S400x640_1_0_0_1_n_n rfl (k0_pay5 P0) P4 shapeCasts_S320x640_S320x640 r o).trans ?_
  unfold dotSeg seg
  exact Finset.sum_congr rfl fun k _ => by rw [run2r_apply, hP0, hP4]

/-- m = 2, the imaginary rows (m-primary rows 24 to 28) times `W2ᵀ`. -/
theorem y1m2_apply (hP4 : ∀ (k : Fin 320) (o : Fin 640), P4 (ix2 k o) = W2 (ix2 o k)) (r : Fin 400) (o : Fin 640) :
    k0_pay14 (F := Ideal) P0 P4 (ix2 r o) = dotSeg X W2 ⟨base + r.val, by omega⟩ 24 (K := 320) (by omega) o := by
  refine (plain_mm (φ₁ := .bf16) dot_S400x320_S320x640_S400x640_1_0_0_1_n_n rfl (run2i P0) P4 shapeCasts_S320x640_S320x640 r o).trans ?_
  unfold dotSeg seg
  exact Finset.sum_congr rfl fun k _ => by rw [run2i_apply, hP0, hP4]

end Cert.KernelIdeal.Mid

end
-- ==== Proof.KernelBlock.lean ====
/-
  What one grid point's body leaves in its output block, entry by entry.

  The block is stated over VARIABLES: `P0` a block of 400 edges' coefficient rows, `P1`, `P3`, `P4` the three weight
  matrices as the kernel is handed them (transposed: entry `(k, o)` is `W (o, k)`), `P2` the bias as a one-row matrix.
  Row `r` of the block is edge `base + r` of the array `X` the block was cut from. Then entry `(r, j, c)` of what the
  body stores is the specification's `Gat` at edge `base + r`, row `j`, channel `c`.
-/
import proofs.«144405_j70824010711660_1_alg».proof.Proof.KernelIdealValueP
import proofs.«144405_j70824010711660_1_alg».proof.Proof.Spec
import proofs.«144405_j70824010711660_1_alg».proof.Proof.LibPlainDot
import proofs.«144405_j70824010711660_1_alg».proof.Proof.KernelMid

noncomputable section

namespace Cert.KernelIdeal.Block

open Cert.KernelIdeal Cert.KernelIdeal.Gen Idealize.ShloMosaic Idealize.ShloMosaic.ValueIdx Cert.Spec

theorem ix5_0_ix3 (r : Fin 400) (j : Fin 29) (c : Fin 64) :
    Cert.KernelIdeal.ValueP.ix5_0 (ix3 r j c) = ix2 r c := by
  funext a; match a with | ⟨0, _⟩ => rfl | ⟨1, _⟩ => rfl

theorem csel5_0_ix3 (r : Fin 400) (j : Fin 29) (c : Fin 64) :
    Cert.KernelIdeal.ValueP.csel5_0 (ix3 r j c) = j := rfl

section Arms

variable {E : Nat} (X : FVec Ideal ⟨3, ![E, 29, 64]⟩ .f32) (W0 : FVec Ideal ⟨2, ![448, 448]⟩ .f32)
  (b0 : FVec Ideal ⟨1, ![448]⟩ .f32) (W1 : FVec Ideal ⟨2, ![768, 384]⟩ .f32) (W2 : FVec Ideal ⟨2, ![640, 320]⟩ .f32)
  (P0 : Vec Ideal S400x29x64 .f32) (P1 : Vec Ideal S448x448 .bf16) (P2 : Vec Ideal S1x448 .f32)
  (P3 : Vec Ideal S384x768 .bf16) (P4 : Vec Ideal S320x640 .bf16)
  (base : Nat) (hbase : base + 400 ≤ E)
  (hP0 : ∀ (r : Fin 400) (p : Fin 29) (c : Fin 64), P0 (ix3 r p c) = X (ix3 ⟨base + r.val, by omega⟩ p c))
  (hP1 : ∀ (k o : Fin 448), P1 (ix2 k o) = W0 (ix2 o k))
  (hP2 : ∀ o : Fin 448, P2 (ix2 (0 : Fin 1) o) = b0 (ix1 o))
  (hP3 : ∀ (k : Fin 384) (o : Fin 768), P3 (ix2 k o) = W1 (ix2 o k))
  (hP4 : ∀ (k : Fin 320) (o : Fin 640), P4 (ix2 k o) = W2 (ix2 o k))

include hP0 hP1 hP2 in
/-- A 64-wide column window at offset `64 q` of the m = 0 product is the run's row `q`. -/
theorem armA (off : Nat) (h : S400x448.Slices ![0, off] S400x64) (q : Fin 7) (hoff : off = 64 * q.val)
    (r : Fin 400) (c : Fin 64) :
    extractStridedSlice S400x64 ![0, off] (k0_pay8 (F := Ideal) (k0_pay2 P0) P1 P2) h (ix2 r c)
      = gA X W0 b0 ⟨base + r.val, by omega⟩ q c := by
  subst hoff
  refine (extractStridedSlice_apply _ _ h (ix2 r c) (ix2 r ⟨64 * q.val + c.val, by omega⟩) ?_).trans ?_
  · intro a
    match a with
    | ⟨0, _⟩ => show r.val = 0 + r.val; omega
    | ⟨1, _⟩ => rfl
  · exact Mid.out0_apply X W0 b0 P0 P1 P2 base hbase hP0 hP1 hP2 r _

include hP0 hP3 in
/-- The same window of the m = 1 real part: the real run against the first half of the weights minus the
    imaginary run against the second half. -/
theorem armB (off : Nat) (h : S400x384.Slices ![0, off] S400x64) (q : Fin 6) (hoff : off = 64 * q.val)
    (r : Fin 400) (c : Fin 64) :
    extractStridedSlice S400x64 ![0, off]
        (subf (extractStridedSlice S400x384 ![0, 0] (k0_pay9 (F := Ideal) (k0_pay3 P0) P3) slices_S400x768_o0_0_S400x384)
          (extractStridedSlice S400x384 ![0, 384] (k0_pay10 (F := Ideal) (k0_pay4 P0) P3) slices_S400x768_o0_384_S400x384)) h (ix2 r c)
      = gB X W1 ⟨base + r.val, by omega⟩ q c := by
  subst hoff
  refine (extractStridedSlice_apply _ _ h (ix2 r c) (ix2 r (⟨64 * q.val + c.val, by omega⟩ : Fin 384)) ?_).trans ?_
  · intro a
    match a with
    | ⟨0, _⟩ => show r.val = 0 + r.val; omega
    | ⟨1, _⟩ => show 64 * q.val + c.val = 64 * q.val + c.val; omega
  refine (subf_apply _ _ _).trans ?_
  unfold gB
  congr 1
  · refine (extractStridedSlice_apply _ _ _ _ (ix2 r (⟨64 * q.val + c.val, by omega⟩ : Fin 768)) ?_).trans ?_
    · intro a
      match a with
      | ⟨0, _⟩ => show r.val = 0 + r.val; omega
      | ⟨1, _⟩ => show 64 * q.val + c.val = 0 + (64 * q.val + c.val); omega
    · exact Mid.y0m1_apply X W1 P0 P3 base hbase hP0 hP3 r _
  · refine (extractStridedSlice_apply _ _ _ _ (ix2 r (⟨384 + (64 * q.val + c.val), by omega⟩ : Fin 768)) ?_).trans ?_
    · intro a
      match a with
      | ⟨0, _⟩ => show r.val = 0 + r.val; omega
      | ⟨1, _⟩ => show 384 + (64 * q.val + c.val) = 384 + (64 * q.val + c.val); omega
    · exact Mid.y1m1_apply X W1 P0 P3 base hbase hP0 hP3 r _

include hP0 hP3 in
/-- … of the m = 1 imaginary part: the imaginary run against the first half plus the real run against the second. -/
theorem armC (off : Nat) (h : S400x384.Slices ![0, off] S400x64) (q : Fin 6) (hoff : off = 64 * q.val)
    (r : Fin 400) (c : Fin 64) :
    extractStridedSlice S400x64 ![0, off]
        (addf (extractStridedSlice S400x384 ![0, 0] (k0_pay10 (F := Ideal) (k0_pay4 P0) P3) slices_S400x768_o0_0_S400x384)
          (extractStridedSlice S400x384 ![0, 384] (k0_pay9 (F := Ideal) (k0_pay3 P0) P3) slices_S400x768_o0_384_S400x384)) h (ix2 r c)
      = gC X W1 ⟨base + r.val, by omega⟩ q c := by
  subst hoff
  refine (extractStridedSlice_apply _ _ h (ix2 r c) (ix2 r (⟨64 * q.val + c.val, by omega⟩ : Fin 384)) ?_).trans ?_
  · intro a
    match a with
    | ⟨0, _⟩ => show r.val = 0 + r.val; omega
    | ⟨1, _⟩ => show 64 * q.val + c.val = 64 * q.val + c.val; omega
  refine (addf_apply _ _ _).trans ?_
  unfold gC
  congr 1
  · refine (extractStridedSlice_apply _ _ _ _ (ix2 r (⟨64 * q.val + c.val, by omega⟩ : Fin 768)) ?_).trans ?_
    · intro a
      match a with
      | ⟨0, _⟩ => show r.val = 0 + r.val; omega
      | ⟨1, _⟩ => show 64 * q.val + c.val = 0 + (64 * q.val + c.val); omega
    · exact Mid.y1m1_apply X W1 P0 P3 base hbase hP0 hP3 r _
  · refine (extractStridedSlice_apply _ _ _ _ (ix2 r (⟨384 + (64 * q.val + c.val), by omega⟩ : Fin 768)) ?_).trans ?_
    · intro a
      match a with
      | ⟨0, _⟩ => show r.val = 0 + r.val; omega
      | ⟨1, _⟩ => show 384 + (64 * q.val + c.val) = 384 + (64 * q.val + c.val); omega
    · exact Mid.y0m1_apply X W1 P0 P3 base hbase hP0 hP3 r _

include hP0 hP4 in
/-- … of the m = 2 real part. -/
theorem armD (off : Nat) (h : S400x320.Slices ![0, off] S400x64) (q : Fin 5) (hoff : off = 64 * q.val)
    (r : Fin 400) (c : Fin 64) :
    extractStridedSlice S400x64 ![0, off]
        (subf (extractStridedSlice S400x320 ![0, 0] (k0_pay13 (F := Ideal) (k0_pay5 P0) P4) slices_S400x640_o0_0_S400x320)
          (extractStridedSlice S400x320 ![0, 320] (k0_pay14 (F := Ideal) P0 P4) slices_S400x640_o0_320_S400x320)) h (ix2 r c)
      = gD X W2 ⟨base + r.val, by omega⟩ q c := by
  subst hoff
  refine (extractStridedSlice_apply _ _ h (ix2 r c) (ix2 r (⟨64 * q.val + c.val, by omega⟩ : Fin 320)) ?_).trans ?_
  · intro a
    match a with
    | ⟨0, _⟩ => show r.val = 0 + r.val; omega
    | ⟨1, _⟩ => show 64 * q.val + c.val = 64 * q.val + c.val; omega
  refine (subf_apply _ _ _).trans ?_
  unfold gD
  congr 1
  · refine (extractStridedSlice_apply _ _ _ _ (ix2 r (⟨64 * q.val + c.val, by omega⟩ : Fin 640)) ?_).trans ?_
    · intro a
      match a with
      | ⟨0, _⟩ => show r.val = 0 + r.val; omega
      | ⟨1, _⟩ => show 64 * q.val + c.val = 0 + (64 * q.val + c.val); omega
    · exact Mid.y0m2_apply X W2 P0 P4 base hbase hP0 hP4 r _
  · refine (extractStridedSlice_apply _ _ _ _ (ix2 r (⟨320 + (64 * q.val + c.val), by omega⟩ : Fin 640)) ?_).trans ?_
    · intro a
      match a with
      | ⟨0, _⟩ => show r.val = 0 + r.val; omega
      | ⟨1, _⟩ => show 320 + (64 * q.val + c.val) = 320 + (64 * q.val + c.val); omega
    · exact Mid.y1m2_apply X W2 P0 P4 base hbase hP0 hP4 r _

include hP0 hP4 in
/-- … of the m = 2 imaginary part. -/
theorem armE (off : Nat) (h : S400x320.Slices ![0, off] S400x64) (q : Fin 5) (hoff : off = 64 * q.val)
    (r : Fin 400) (c : Fin 64) :
    extractStridedSlice S400x64 ![0, off]
        (addf (extractStridedSlice S400x320 ![0, 0] (k0_pay14 (F := Ideal) P0 P4) slices_S400x640_o0_0_S400x320)
          (extractStridedSlice S400x320 ![0, 320] (k0_pay13 (F := Ideal) (k0_pay5 P0) P4) slices_S400x640_o0_320_S400x320)) h (ix2 r c)
      = gE X W2 ⟨base + r.val, by omega⟩ q c := by
  subst hoff
  refine (extractStridedSlice_apply _ _ h (ix2 r c) (ix2 r (⟨64 * q.val + c.val, by omega⟩ : Fin 320)) ?_).trans ?_
  · intro a
    match a with
    | ⟨0, _⟩ => show r.val = 0 + r.val; omega
    | ⟨1, _⟩ => show 64 * q.val + c.val = 64 * q.val + c.val; omega
  refine (addf_apply _ _ _).trans ?_
  unfold gE
  congr 1
  · refine (extractStridedSlice_apply _ _ _ _ (ix2 r (⟨64 * q.val + c.val, by omega⟩ : Fin 640)) ?_).trans ?_
    · intro a
      match a with
      | ⟨0, _⟩ => show r.val = 0 + r.val; omega
      | ⟨1, _⟩ => show 64 * q.val + c.val = 0 + (64 * q.val + c.val); omega
    · exact Mid.y1m2_apply X W2 P0 P4 base hbase hP0 hP4 r _
  · refine (extractStridedSlice_apply _ _ _ _ (ix2 r (⟨320 + (64 * q.val + c.val), by omega⟩ : Fin 640)) ?_).trans ?_
    · intro a
      match a with
      | ⟨0, _⟩ => show r.val = 0 + r.val; omega
      | ⟨1, _⟩ => show 320 + (64 * q.val + c.val) = 320 + (64 * q.val + c.val); omega
    · exact Mid.y0m2_apply X W2 P0 P4 base hbase hP0 hP4 r _

end Arms

theorem block_eq {E : Nat} (X : FVec Ideal ⟨3, ![E, 29, 64]⟩ .f32) (W0 : FVec Ideal ⟨2, ![448, 448]⟩ .f32)
    (b0 : FVec Ideal ⟨1, ![448]⟩ .f32) (W1 : FVec Ideal ⟨2, ![768, 384]⟩ .f32) (W2 : FVec Ideal ⟨2, ![640, 320]⟩ .f32)
    (P0 : Vec Ideal S400x29x64 .f32) (P1 : Vec Ideal S448x448 .bf16) (P2 : Vec Ideal S1x448 .f32)
    (P3 : Vec Ideal S384x768 .bf16) (P4 : Vec Ideal S320x640 .bf16)
    (base : Nat) (hbase : base + 400 ≤ E)
    (hP0 : ∀ (r : Fin 400) (p : Fin 29) (c : Fin 64), P0 (ix3 r p c) = X (ix3 ⟨base + r.val, by omega⟩ p c))
    (hP1 : ∀ (k o : Fin 448), P1 (ix2 k o) = W0 (ix2 o k))
    (hP2 : ∀ o : Fin 448, P2 (ix2 (0 : Fin 1) o) = b0 (ix1 o))
    (hP3 : ∀ (k : Fin 384) (o : Fin 768), P3 (ix2 k o) = W1 (ix2 o k))
    (hP4 : ∀ (k : Fin 320) (o : Fin 640), P4 (ix2 k o) = W2 (ix2 o k))
    (r : Fin 400) (j : Fin 29) (c : Fin 64) :
    Cert.KernelIdeal.ValueP.E5 (F := Ideal) P0 P1 P2 P3 P4 (ix3 r j c)
      = Gat X W0 b0 W1 W2 ⟨base + r.val, by omega⟩ j c := by
  -- the five kinds of window, at this block row and channel
  have hA := fun off h q hoff => armA X W0 b0 P0 P1 P2 base hbase hP0 hP1 hP2 off h q hoff r c
  have hB := fun off h q hoff => armB X W1 P0 P3 base hbase hP0 hP3 off h q hoff r c
  have hC := fun off h q hoff => armC X W1 P0 P3 base hbase hP0 hP3 off h q hoff r c
  have hD := fun off h q hoff => armD X W2 P0 P4 base hbase hP0 hP4 off h q hoff r c
  have hE := fun off h q hoff => armE X W2 P0 P4 base hbase hP0 hP4 off h q hoff r c
  -- entry (r, j, c) of the block is operand j of the concatenation, read at (r, c)
  refine (congrArg (Cert.KernelIdeal.ValueP.Cat5_0 P0 P1 P2 P3 P4 j) (ix5_0_ix3 r j c)).trans ?_
  -- operand j is a 64-wide window of one of the five products; its row in m-primary order is `fromM j`
  match j with
  | ⟨0, _⟩ => exact hA 0 _ ⟨0, by omega⟩ rfl
  | ⟨1, _⟩ => exact hC 0 _ ⟨0, by omega⟩ rfl
  | ⟨2, _⟩ => exact hA 64 _ ⟨1, by omega⟩ rfl
  | ⟨3, _⟩ => exact hB 0 _ ⟨0, by omega⟩ rfl
  | ⟨4, _⟩ => exact hE 0 _ ⟨0, by omega⟩ rfl
  | ⟨5, _⟩ => exact hC 64 _ ⟨1, by omega⟩ rfl
  | ⟨6, _⟩ => exact hA 128 _ ⟨2, by omega⟩ rfl
  | ⟨7, _⟩ => exact hB 64 _ ⟨1, by omega⟩ rfl
  | ⟨8, _⟩ => exact hD 0 _ ⟨0, by omega⟩ rfl
  | ⟨9, _⟩ => exact hE 64 _ ⟨1, by omega⟩ rfl
  | ⟨10, _⟩ => exact hC 128 _ ⟨2, by omega⟩ rfl
  | ⟨11, _⟩ => exact hA 192 _ ⟨3, by omega⟩ rfl
  | ⟨12, _⟩ => exact hB 128 _ ⟨2, by omega⟩ rfl
  | ⟨13, _⟩ => exact hD 64 _ ⟨1, by omega⟩ rfl
  | ⟨14, _⟩ => exact hE 128 _ ⟨2, by omega⟩ rfl
  | ⟨15, _⟩ => exact hC 192 _ ⟨3, by omega⟩ rfl
  | ⟨16, _⟩ => exact hA 256 _ ⟨4, by omega⟩ rfl
  | ⟨17, _⟩ => exact hB 192 _ ⟨3, by omega⟩ rfl
  | ⟨18, _⟩ => exact hD 128 _ ⟨2, by omega⟩ rfl
  | ⟨19, _⟩ => exact hE 192 _ ⟨3, by omega⟩ rfl
  | ⟨20, _⟩ => exact hC 256 _ ⟨4, by omega⟩ rfl
  | ⟨21, _⟩ => exact hA 320 _ ⟨5, by omega⟩ rfl
  | ⟨22, _⟩ => exact hB 256 _ ⟨4, by omega⟩ rfl
  | ⟨23, _⟩ => exact hD 192 _ ⟨3, by omega⟩ rfl
  | ⟨24, _⟩ => exact hE 256 _ ⟨4, by omega⟩ rfl
  | ⟨25, _⟩ => exact hC 320 _ ⟨5, by omega⟩ rfl
  | ⟨26, _⟩ => exact hA 384 _ ⟨6, by omega⟩ rfl
  | ⟨27, _⟩ => exact hB 320 _ ⟨5, by omega⟩ rfl
  | ⟨28, _⟩ => exact hD 256 _ ⟨4, by omega⟩ rfl
  | ⟨n + 29, h⟩ => exact absurd h (by omega)

end Cert.KernelIdeal.Block

end
-- ==== Proof.KernelArray.lean ====
/-
  The kernel's output array after the run is the specification's array.

  Grid point `t` of the 125 stages rows `400 t … 400 t + 399` of the input and of the output (the index maps of
  windows 0 and 5 send `t` to block `(t, 0, 0)`), and the whole of each weight array and of the bias (block `(0, 0)`).
  The weight arrays the region finds are the arguments transposed (and changed to bf16, the identity on extended reals),
  the bias the argument as one row. So what point `t` writes back is block `t` of the specification's array
  (`Block.block_eq` at `base = 400 t`), every row of the output lies in the block of point `row / 400`, and the array
  after the run is the specification's array.
-/
import proofs.«144405_j70824010711660_1_alg».proof.Proof.KernelBlock

noncomputable section

namespace Cert.KernelIdeal.Array

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's array of core `c`'s argument arrays. -/
abbrev Gm (c : Dev nD) : FVec Ideal S50000x29x64 .f32 :=
  Cert.Spec.G (E := 50000) (m ((c : Thread nD τ).loc main_arg0)) (m ((c : Thread nD τ).loc main_arg2))
    (m ((c : Thread nD τ).loc main_arg3)) (m ((c : Thread nD τ).loc main_arg4)) (m ((c : Thread nD τ).loc main_arg5))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 125 points: windows 0 and 5 send point `t` to block `(t, 0, 0)`, windows 1 to 4
    to block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 125 := by
  exact lt_of_lt_of_eq t.isLt N_0

/-! ## The arrays the region finds -/

/-- The first weight array as the region finds it: the argument transposed (and changed to bf16). -/
theorem V_v1 (c : Dev nD) : (V m c main_v1 : FVec Ideal S448x448 .bf16)
    = truncf (F := Ideal) .bf16 (transpose S448x448 [1, 0] (m ((c : Thread nD τ).loc main_arg2) : FVec Ideal S448x448 .f32) transposes_S448x448_S448x448_1_0) bitsLt_bf16_f32 := by
  dsimp only [Gen.V, Gen.hostOps0]; after_results

/-- The second weight array as the region finds it. -/
theorem V_v3 (c : Dev nD) : (V m c main_v3 : FVec Ideal S384x768 .bf16)
    = truncf (F := Ideal) .bf16 (transpose S384x768 [1, 0] (m ((c : Thread nD τ).loc main_arg4) : FVec Ideal S768x384 .f32) transposes_S768x384_S384x768_1_0) bitsLt_bf16_f32 := by
  dsimp only [Gen.V, Gen.hostOps0]; after_results

/-- The third weight array as the region finds it. -/
theorem V_v5 (c : Dev nD) : (V m c main_v5 : FVec Ideal S320x640 .bf16)
    = truncf (F := Ideal) .bf16 (transpose S320x640 [1, 0] (m ((c : Thread nD τ).loc main_arg5) : FVec Ideal S640x320 .f32) transposes_S640x320_S320x640_1_0) bitsLt_bf16_f32 := by
  dsimp only [Gen.V, Gen.hostOps0]; after_results

/-- The bias as the region finds it: the argument as one row. -/
theorem V_v6 (c : Dev nD) : (V m c main_v6 : FVec Ideal S1x448 .f32)
    = shapeCast S1x448 (m ((c : Thread nD τ).loc main_arg3) : FVec Ideal S448 .f32) shapeCasts_S448_S1x448 := by
  dsimp only [Gen.V, Gen.hostOps0]; after_results; rfl

/-! ## The windows' blocks at a point -/

/-- The input block at point `t` is rows `400 t … 400 t + 399` of the argument. -/
theorem blk0 (c : Dev nD) (t : Fin cfg0.N) (r : Fin 400) (p : Fin 29) (q : Fin 64) :
    (iblk m c 0 t : Vec Ideal S400x29x64 .f32) (ix3 r p q)
      = (m ((c : Thread nD τ).loc main_arg0) : FVec Ideal S50000x29x64 .f32)
          (ix3 ⟨400 * t.val + r.val, by have := t_lt t; omega⟩ p q) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 400 + 1 * r.val = 400 * t.val + r.val; omega
  | ⟨1, _⟩ => show win0_0.index t (1 : Fin 3) * 29 + 1 * p.val = p.val; omega
  | ⟨2, _⟩ => show win0_0.index t (2 : Fin 3) * 64 + 1 * q.val = q.val; omega

/-- The first weight block at any point is the whole array the region finds: the argument transposed. -/
theorem blk1 (c : Dev nD) (t : Fin cfg0.N) (k o : Fin 448) :
    (iblk m c 1 t : Vec Ideal S448x448 .bf16) (ix2 k o)
      = (m ((c : Thread nD τ).loc main_arg2) : FVec Ideal S448x448 .f32) (ix2 o k) := by
  obtain ⟨-, -, -, e0, e1, -⟩ := idx_facts t
  unfold iblk
  rw [View.read_apply]
  show (V m c main_v1 : FVec Ideal S448x448 .bf16) _ = _
  rw [V_v1]
  refine (truncf_apply (ψ := .bf16) _ bitsLt_bf16_f32 _).trans ?_
  refine transpose_apply _ _ _ _ (ix2 o k) fun b => ?_
  match b with
  | ⟨0, _⟩ => show k.val = win0_1.index t (0 : Fin 2) * 448 + 1 * k.val; omega
  | ⟨1, _⟩ => show o.val = win0_1.index t (1 : Fin 2) * 448 + 1 * o.val; omega

/-- The bias block at any point is the whole one-row array the region finds: the argument as one row. -/
theorem blk2 (c : Dev nD) (t : Fin cfg0.N) (o : Fin 448) :
    (iblk m c 2 t : Vec Ideal S1x448 .f32) (ix2 (0 : Fin 1) o)
      = (m ((c : Thread nD τ).loc main_arg3) : FVec Ideal S448 .f32) (ix1 o) := by
  obtain ⟨-, -, -, -, -, e0, e1, -⟩ := idx_facts t
  unfold iblk
  rw [View.read_apply]
  show (V m c main_v6 : FVec Ideal S1x448 .f32) _ = _
  rw [V_v6]
  refine shapeCast_apply _ _ _ (ix1 o) ?_
  rw [Shape.rowMajor_val_two, Shape.rowMajor_val_one]
  show o.val = (win0_2.index t (0 : Fin 2) * 1 + 1 * 0) * 448 + (win0_2.index t (1 : Fin 2) * 448 + 1 * o.val)
  omega

/-- The second weight block at any point: the argument transposed. -/
theorem blk3 (c : Dev nD) (t : Fin cfg0.N) (k : Fin 384) (o : Fin 768) :
    (iblk m c 3 t : Vec Ideal S384x768 .bf16) (ix2 k o)
      = (m ((c : Thread nD τ).loc main_arg4) : FVec Ideal S768x384 .f32) (ix2 o k) := by
  obtain ⟨-, -, -, -, -, -, -, e0, e1, -⟩ := idx_facts t
  unfold iblk
  rw [View.read_apply]
  show (V m c main_v3 : FVec Ideal S384x768 .bf16) _ = _
  rw [V_v3]
  refine (truncf_apply (ψ := .bf16) _ bitsLt_bf16_f32 _).trans ?_
  refine transpose_apply _ _ _ _ (ix2 o k) fun b => ?_
  match b with
  | ⟨0, _⟩ => show k.val = win0_3.index t (0 : Fin 2) * 384 + 1 * k.val; omega
  | ⟨1, _⟩ => show o.val = win0_3.index t (1 : Fin 2) * 768 + 1 * o.val; omega

/-- The third weight block at any point: the argument transposed. -/
theorem blk4 (c : Dev nD) (t : Fin cfg0.N) (k : Fin 320) (o : Fin 640) :
    (iblk m c 4 t : Vec Ideal S320x640 .bf16) (ix2 k o)
      = (m ((c : Thread nD τ).loc main_arg5) : FVec Ideal S640x320 .f32) (ix2 o k) := by
  obtain ⟨-, -, -, -, -, -, -, -, -, e0, e1, -⟩ := idx_facts t
  unfold iblk
  rw [View.read_apply]
  show (V m c main_v5 : FVec Ideal S320x640 .bf16) _ = _
  rw [V_v5]
  refine (truncf_apply (ψ := .bf16) _ bitsLt_bf16_f32 _).trans ?_
  refine transpose_apply _ _ _ _ (ix2 o k) fun b => ?_
  match b with
  | ⟨0, _⟩ => show k.val = win0_4.index t (0 : Fin 2) * 320 + 1 * k.val; omega
  | ⟨1, _⟩ => show o.val = win0_4.index t (1 : Fin 2) * 640 + 1 * o.val; omega

/-! ## What a point writes back -/

/-- What the body leaves at point `t`, entry by entry: the specification's array at row `400 t + r`. -/
theorem out_eq (c : Dev nD) (t : Fin cfg0.N) (r : Fin 400) (p : Fin 29) (q : Fin 64) :
    out0_5 (F := Ideal) (iblk m c 0 t) (iblk m c 1 t) (iblk m c 2 t) (iblk m c 3 t) (iblk m c 4 t) (ix3 r p q)
      = Gm m c (ix3 ⟨400 * t.val + r.val, by have := t_lt t; omega⟩ p q) := by
  unfold out0_5
  simp only [View.ld_unit_zero (S := S400x29x64) hz3, View.ld_unit_zero (S := S448x448) hz2,
    View.ld_unit_zero (S := S1x448) hz2, View.ld_unit_zero (S := S384x768) hz2, View.ld_unit_zero (S := S320x640) hz2]
  rw [ValueP.canon5_eq]
  exact Block.block_eq (E := 50000)
    (m ((c : Thread nD τ).loc main_arg0)) (m ((c : Thread nD τ).loc main_arg2)) (m ((c : Thread nD τ).loc main_arg3))
    (m ((c : Thread nD τ).loc main_arg4)) (m ((c : Thread nD τ).loc main_arg5))
    (iblk m c 0 t) (iblk m c 1 t) (iblk m c 2 t) (iblk m c 3 t) (iblk m c 4 t)
    (400 * t.val) (by have := t_lt t; omega)
    (blk0 m c t) (blk1 m c t) (blk2 m c t) (blk3 m c t) (blk4 m c t) r p q

/-- The same at any index of the block. -/
theorem out_eq_idx (c : Dev nD) (t : Fin cfg0.N) (y : S400x29x64.Idx) :
    out0_5 (F := Ideal) (iblk m c 0 t) (iblk m c 1 t) (iblk m c 2 t) (iblk m c 3 t) (iblk m c 4 t) y
      = Gm m c (ix3 ⟨400 * t.val + (y 0).val, by have := t_lt t; have h0 : (y 0).val < 400 := (y 0).isLt; omega⟩ (y 1) (y 2)) :=
  (congrArg _ (eq_ix3 y)).trans (out_eq m c t (y 0) (y 1) (y 2))

/-- WHAT POINT `t` WRITES BACK is block `t` of the specification's array. -/
theorem flushed_eq (c : Dev nD) (t : Fin cfg0.N) :
    (dats m 0 c).flushed 5 t = ((cfg0.win 5).blk t).view.read (Elt Ideal) (Gm m c) := by
  obtain ⟨-, -, -, -, -, -, -, -, -, -, -, e0, e1, e2⟩ := idx_facts t
  rw [ValueP.flushed5]
  funext y
  rw [View.read_apply]
  refine (out_eq_idx m c t ((cfg0.win 5).xinj (grid0.coords t) y)).trans ?_
  congr 1
  funext a
  apply Fin.ext
  match a with
  | ⟨0, _⟩ => show 400 * t.val + (y 0).val = win0_5.index t (0 : Fin 3) * 400 + 1 * (y 0).val; omega
  | ⟨1, _⟩ => show (y 1).val = win0_5.index t (1 : Fin 3) * 29 + 1 * (y 1).val; omega
  | ⟨2, _⟩ => show (y 2).val = win0_5.index t (2 : Fin 3) * 64 + 1 * (y 2).val; omega

/-! ## The blocks cover the array -/

/-- An index of the output array is in point `t`'s block iff each coordinate is in the block's range on its axis. -/
theorem mem_blk (t : Fin cfg0.N) (i : S50000x29x64.Idx) :
    i ∈ ((cfg0.win 5).blk t).view.set ↔ ∀ a : Fin 3, win0_5.index t a * S400x29x64.size a ≤ (i a).val
      ∧ (i a).val < win0_5.index t a * S400x29x64.size a + S400x29x64.size a := by
  show i ∈ ((View.whole main_v7).slice (win0_5.rect t)).set ↔ _
  rw [View.set_slice_whole, Rect.mem_set_unit]
  exact Iff.rfl

/-- Every index of the output array lies in the block of the point `row / 400`. -/
theorem cover (i : S50000x29x64.Idx) :
    ∃ t : Fin cfg0.N, (cfg0.win 5).flush t = true ∧ i ∈ ((cfg0.win 5).blk t).view.set := by
  have hi0 : (i 0).val < 50000 := (i 0).isLt
  have hi1 : (i 1).val < 29 := (i 1).isLt
  have hi2 : (i 2).val < 64 := (i 2).isLt
  have ht : (i 0).val / 400 < cfg0.N := lt_of_lt_of_eq (by omega) N_0.symm
  obtain ⟨-, -, -, -, -, -, -, -, -, -, -, e0, e1, e2⟩ := idx_facts ⟨(i 0).val / 400, ht⟩
  refine ⟨⟨(i 0).val / 400, ht⟩, flush0_5 _, ?_⟩
  rw [mem_blk]
  intro a
  match a with
  | ⟨0, _⟩ =>
    show win0_5.index ⟨(i 0).val / 400, ht⟩ (0 : Fin 3) * 400 ≤ (i 0).val
      ∧ (i 0).val < win0_5.index ⟨(i 0).val / 400, ht⟩ (0 : Fin 3) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 3) * 29 ≤ (i 1).val
      ∧ (i 1).val < win0_5.index ⟨(i 0).val / 400, ht⟩ (1 : Fin 3) * 29 + 29
    omega
  | ⟨2, _⟩ =>
    show win0_5.index ⟨(i 0).val / 400, ht⟩ (2 : Fin 3) * 64 ≤ (i 2).val
      ∧ (i 2).val < win0_5.index ⟨(i 0).val / 400, ht⟩ (2 : Fin 3) * 64 + 64
    omega

/-- The output array after the run is the specification's array. -/
theorem final (c : Dev nD) : (dats m 0 c).arrAt 5 cfg0.N = Gm m c := by
  exact (dats m 0 c).arrAt_eq_of_cover 5 (Gm m c) (fun t _ => flushed_eq m c t) cover

/-- The run, with the result named: the specification's array, the arguments unchanged. -/
theorem run : θ_run defs (onTc (τ := τ) (main (F := Ideal))) ⟨m, fun _ => 0, ρ⟩ fun r => ∀ c : Dev nD,
      r.2.mem ((c : Thread nD τ).loc main_v7) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.ValueP.run_blocks m ρ)

end Cert.KernelIdeal.Array

end
-- ==== Proof.RefTerm.lean ====
/-
  The reference's result as a function of its argument arrays, stage by stage.

  `x4` is the input with its 29 coefficient rows reordered to m-primary order (a gather along the middle axis at the
  index table `idxTo`). `stM0` is the m = 0 path: rows 0 to 6 flattened to 448 entries per edge, times `W0` transposed,
  plus the bias, reshaped back to 7 rows of 64. `stM1` and `stM2` are the m = 1 and m = 2 paths: the run's rows
  (12 from row 7, 10 from row 19) reshaped to a real and an imaginary flat vector per edge, both multiplied by the
  weight matrix (`einsum 'enk,ok->eno'`), the two halves of the products combined as a complex product (real part
  first, imaginary part second) and reshaped back to rows of 64. `refOut` concatenates the three along the row axis and
  reorders the rows back to l-primary order (a gather at the index table `idxFrom`).
  The index tables are built as the program builds them: the literal table, wrapped by `where (table < 0, table + 29,
  table)` with an all-false mask, as a column.
-/
import proofs.«144405_j70824010711660_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The l-primary row of each m-primary position, as the column of start indices the first gather reads. -/
def idxTo : (⟨S29x1, .i32⟩ : BufTy).Contents (Elt F) :=
  (broadcastInDim S29x1 ![0] bcast_S29_S29x1_0 : (⟨S29, .i32⟩ : BufTy).Contents (Elt F) → (⟨S29x1, .i32⟩ : BufTy).Contents (Elt F))
    ((select : (⟨S29, .i1⟩ : BufTy).Contents (Elt F) → (⟨S29, .i32⟩ : BufTy).Contents (Elt F) → (⟨S29, .i32⟩ : BufTy).Contents (Elt F) → (⟨S29, .i32⟩ : BufTy).Contents (Elt F))
      (constantI S29 1 0#1)
      ((addi : (⟨S29, .i32⟩ : BufTy).Contents (Elt F) → (⟨S29, .i32⟩ : BufTy).Contents (Elt F) → (⟨S29, .i32⟩ : BufTy).Contents (Elt F))
        (fun i => lit0 (S29.rowMajor i))
        ((broadcastInDim S29 ![] bcast_S_S29 : (⟨S_, .i32⟩ : BufTy).Contents (Elt F) → (⟨S29, .i32⟩ : BufTy).Contents (Elt F)) (constantI S_ 32 29#32)))
      (fun i => lit0 (S29.rowMajor i)))

/-- The m-primary position of each l-primary row, as the column of start indices the last gather reads. -/
def idxFrom : (⟨S29x1, .i32⟩ : BufTy).Contents (Elt F) :=
  (broadcastInDim S29x1 ![0] bcast_S29_S29x1_0 : (⟨S29, .i32⟩ : BufTy).Contents (Elt F) → (⟨S29x1, .i32⟩ : BufTy).Contents (Elt F))
    ((select : (⟨S29, .i1⟩ : BufTy).Contents (Elt F) → (⟨S29, .i32⟩ : BufTy).Contents (Elt F) → (⟨S29, .i32⟩ : BufTy).Contents (Elt F) → (⟨S29, .i32⟩ : BufTy).Contents (Elt F))
      (constantI S29 1 0#1)
      ((addi : (⟨S29, .i32⟩ : BufTy).Contents (Elt F) → (⟨S29, .i32⟩ : BufTy).Contents (Elt F) → (⟨S29, .i32⟩ : BufTy).Contents (Elt F))
        (fun i => lit1 (S29.rowMajor i))
        ((broadcastInDim S29 ![] bcast_S_S29 : (⟨S_, .i32⟩ : BufTy).Contents (Elt F) → (⟨S29, .i32⟩ : BufTy).Contents (Elt F)) (constantI S_ 32 29#32)))
      (fun i => lit1 (S29.rowMajor i)))

/-- The input in m-primary row order. -/
def x4 (X : FVec F S50000x29x64 .f32) : FVec F S50000x29x64 .f32 :=
  Host.gather gather_S50000x29x64_S29x1_S50000x29x64_02_1_n_n_1_1_50000164 X (idxTo (F := F))

/-- The m = 0 path: 7 rows of 64 per edge. -/
def stM0 (x : FVec F S50000x29x64 .f32) (W0 : FVec F S448x448 .f32) (b0 : FVec F S448 .f32) : FVec F S50000x7x64 .f32 :=
  shapeCast S50000x7x64
    (addf
      (Host.dotGeneral dot_S50000x448_S448x448_S50000x448_1_0_0_1_n_n none
        (shapeCast S50000x448 (extractStridedSlice S50000x7x64 ![0, 0, 0] x slices_S50000x29x64_S50000x7x64_0_0_0) shapeCasts_S50000x7x64_S50000x448)
        (transpose S448x448 [1, 0] W0 transposes_S448x448_S448x448_1_0))
      (broadcastInDim S50000x448 ![0, 1] bcast_S1x448_S50000x448_0_1 (broadcastInDim S1x448 ![1] bcast_S448_S1x448_1 b0)))
    shapeCasts_S50000x448_S50000x7x64

/-- The m = 1 products: per edge, row 0 the real run and row 1 the imaginary run, each times `W1`. -/
def y1 (x : FVec F S50000x29x64 .f32) (W1 : FVec F S768x384 .f32) : FVec F S50000x2x768 .f32 :=
  Host.dotGeneral dot_S50000x2x384_S768x384_S50000x2x768_2_1_01_0_n_n none
    (shapeCast S50000x2x384 (extractStridedSlice S50000x12x64 ![0, 7, 0] x slices_S50000x29x64_S50000x12x64_0_7_0) shapeCasts_S50000x12x64_S50000x2x384)
    W1

/-- The m = 1 path: 12 rows of 64 per edge (6 real, then 6 imaginary). -/
def stM1 (x : FVec F S50000x29x64 .f32) (W1 : FVec F S768x384 .f32) : FVec F S50000x12x64 .f32 :=
  shapeCast S50000x12x64
    (concatenate S50000x2x384 1
      [⟨S50000x1x384, subf
          (extractStridedSlice S50000x1x384 ![0, 0, 0] (extractStridedSlice S50000x2x384 ![0, 0, 0] (y1 x W1) slices_S50000x2x768_S50000x2x384_0_0_0) slices_S50000x2x384_S50000x1x384_0_0_0)
          (extractStridedSlice S50000x1x384 ![0, 1, 0] (extractStridedSlice S50000x2x384 ![0, 0, 384] (y1 x W1) slices_S50000x2x768_S50000x2x384_0_0_384) slices_S50000x2x384_S50000x1x384_0_1_0)⟩,
       ⟨S50000x1x384, addf
          (extractStridedSlice S50000x1x384 ![0, 1, 0] (extractStridedSlice S50000x2x384 ![0, 0, 0] (y1 x W1) slices_S50000x2x768_S50000x2x384_0_0_0) slices_S50000x2x384_S50000x1x384_0_1_0)
          (extractStridedSlice S50000x1x384 ![0, 0, 0] (extractStridedSlice S50000x2x384 ![0, 0, 384] (y1 x W1) slices_S50000x2x768_S50000x2x384_0_0_384) slices_S50000x2x384_S50000x1x384_0_0_0)⟩]
      concatenates_S50000x1x384_S50000x1x384_S50000x2x384_d1)
    shapeCasts_S50000x2x384_S50000x12x64

/-- The m = 2 products: per edge, row 0 the real run and row 1 the imaginary run, each times `W2`. -/
def y2 (x : FVec F S50000x29x64 .f32) (W2 : FVec F S640x320 .f32) : FVec F S50000x2x640 .f32 :=
  Host.dotGeneral dot_S50000x2x320_S640x320_S50000x2x640_2_1_01_0_n_n none
    (shapeCast S50000x2x320 (extractStridedSlice S50000x10x64 ![0, 19, 0] x slices_S50000x29x64_S50000x10x64_0_19_0) shapeCasts_S50000x10x64_S50000x2x320)
    W2

/-- The m = 2 path: 10 rows of 64 per edge (5 real, then 5 imaginary). -/
def stM2 (x : FVec F S50000x29x64 .f32) (W2 : FVec F S640x320 .f32) : FVec F S50000x10x64 .f32 :=
  shapeCast S50000x10x64
    (concatenate S50000x2x320 1
      [⟨S50000x1x320, subf
          (extractStridedSlice S50000x1x320 ![0, 0, 0] (extractStridedSlice S50000x2x320 ![0, 0, 0] (y2 x W2) slices_S50000x2x640_S50000x2x320_0_0_0) slices_S50000x2x320_S50000x1x320_0_0_0)
          (extractStridedSlice S50000x1x320 ![0, 1, 0] (extractStridedSlice S50000x2x320 ![0, 0, 320] (y2 x W2) slices_S50000x2x640_S50000x2x320_0_0_320) slices_S50000x2x320_S50000x1x320_0_1_0)⟩,
       ⟨S50000x1x320, addf
          (extractStridedSlice S50000x1x320 ![0, 1, 0] (extractStridedSlice S50000x2x320 ![0, 0, 0] (y2 x W2) slices_S50000x2x640_S50000x2x320_0_0_0) slices_S50000x2x320_S50000x1x320_0_1_0)
          (extractStridedSlice S50000x1x320 ![0, 0, 0] (extractStridedSlice S50000x2x320 ![0, 0, 320] (y2 x W2) slices_S50000x2x640_S50000x2x320_0_0_320) slices_S50000x2x320_S50000x1x320_0_0_0)⟩]
      concatenates_S50000x1x320_S50000x1x320_S50000x2x320_d1)
    shapeCasts_S50000x2x320_S50000x10x64

/-- The m-primary result: the three paths' rows, 7 then 12 then 10. -/
def mAll (X : FVec F S50000x29x64 .f32) (W0 : FVec F S448x448 .f32) (b0 : FVec F S448 .f32) (W1 : FVec F S768x384 .f32)
    (W2 : FVec F S640x320 .f32) : FVec F S50000x29x64 .f32 :=
  concatenate S50000x29x64 1
    [⟨S50000x7x64, stM0 (x4 X) W0 b0⟩, ⟨S50000x12x64, stM1 (x4 X) W1⟩, ⟨S50000x10x64, stM2 (x4 X) W2⟩]
    concatenates_S50000x7x64_S50000x12x64_S50000x10x64_S50000x29x64_d1

/-- The reference's result: the m-primary result with its rows back in l-primary order. -/
def refOut (X : FVec F S50000x29x64 .f32) (W0 : FVec F S448x448 .f32) (b0 : FVec F S448 .f32) (W1 : FVec F S768x384 .f32)
    (W2 : FVec F S640x320 .f32) : FVec F S50000x29x64 .f32 :=
  Host.gather gather_S50000x29x64_S29x1_S50000x29x64_02_1_n_n_1_1_50000164 (mAll X W0 b0 W1 W2) (idxFrom (F := F))

end Cert.ReferenceIdeal.RefTerm

end
-- ==== Proof.LibNary3.lean ====
/-
  A three-operand host operation's result, each operand at its own reference.

  For a host operation over a LITERAL family of three references (a `stablehlo.concatenate` of three operands, printed
  `nary ![x, a, b] y f`), the result buffer after the operation holds `f` of the three operands' contents, each read at
  its own reference — `Fin.cons (V x) (Fin.cons (V a) (Fin.cons (V b) …))` in place of `fun k => V (![x, a, b] k)`, under
  whose binder the reference is no literal. The library states this for four references; this is the same for three.
-/
import Idealize.ShloMosaic.Lib.StableHlo.Run

namespace Cert.Lib.Nary3

open Idealize.ShloMosaic Idealize.ShloMosaic.StableHlo

variable {nD : Nat} {τ : Topo} {sig : RefSig} {Val : EltTy → Type}
variable {x a b y : Ref sig .tc}

/-- The result of a three-operand operation at its result buffer. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

end Cert.Lib.Nary3
-- ==== Proof.RefRun.lean ====
/-
  The reference's run.

  The reference is a straight line of 51 host operations and no kernel: its @main is that list of operations in order,
  every weakly fair execution of it terminates, and in the final memory each buffer holds the operations' composed
  function of the arguments' launch contents. Read at the result buffer that function is `RefTerm.refOut` of the five
  arguments it uses (the edge-length argument is never read); read at an argument buffer it is the argument itself,
  since no operation writes one.
-/
import proofs.«144405_j70824010711660_1_alg».proof.Proof.RefTerm
import proofs.«144405_j70824010711660_1_alg».proof.Proof.LibNary3
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- Rewrites the contents of a literal reference after a literal list of operations to the operations' functions of the
    launch contents: each operation's result at its own result buffer, what was there at any other reference; a
    three-operand operation by `Cert.Lib.Nary3.nary3_result`. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [Cert.Lib.Nary3.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-- @main's 51 operations, in order. -/
abbrev ops : List (HloOp τ sig (Elt F)) :=
  [
    nullary main_c (fun i => lit0 (S29.rowMajor i)),
    nullary main_c_0 (constantI S29 1 0#1),
    nullary main_c_1 (fun i => lit1 (S29.rowMajor i)),
    nullary main_c_2 (constantI S29 1 0#1),
    nullary main_c_3 (constantI S_ 32 29#32),
    unary main_c_3 main_v0 (broadcastInDim S29 ![] bcast_S_S29 : (⟨S_, .i32⟩ : BufTy).Contents (Elt F) → (⟨S29, .i32⟩ : BufTy).Contents (Elt F)),
    binary main_c main_v0 main_v1 (addi : (⟨S29, .i32⟩ : BufTy).Contents (Elt F) → (⟨S29, .i32⟩ : BufTy).Contents (Elt F) → (⟨S29, .i32⟩ : BufTy).Contents (Elt F)),
    ternary main_c_0 main_v1 main_c main_v2 (select : (⟨S29, .i1⟩ : BufTy).Contents (Elt F) → (⟨S29, .i32⟩ : BufTy).Contents (Elt F) → (⟨S29, .i32⟩ : BufTy).Contents (Elt F) → (⟨S29, .i32⟩ : BufTy).Contents (Elt F)),
    unary main_v2 main_v3 (broadcastInDim S29x1 ![0] bcast_S29_S29x1_0 : (⟨S29, .i32⟩ : BufTy).Contents (Elt F) → (⟨S29x1, .i32⟩ : BufTy).Contents (Elt F)),
    binary main_arg0 main_v3 main_v4 ((fun x i => Host.gather gather_S50000x29x64_S29x1_S50000x29x64_02_1_n_n_1_1_50000164 x i) : (⟨S50000x29x64, .f32⟩ : BufTy).Contents (Elt F) → (⟨S29x1, .i32⟩ : BufTy).Contents (Elt F) → (⟨S50000x29x64, .f32⟩ : BufTy).Contents (Elt F)),
    unary main_v4 main_v5 ((extractStridedSlice S50000x7x64 ![0, 0, 0] · slices_S50000x29x64_S50000x7x64_0_0_0) : (⟨S50000x29x64, .f32⟩ : BufTy).Contents (Elt F) → (⟨S50000x7x64, .f32⟩ : BufTy).Contents (Elt F)),
    reshape main_v5 main_v6 rfl shapeCasts_S50000x7x64_S50000x448,
    unary main_arg2 main_v7 ((transpose S448x448 [1, 0] · transposes_S448x448_S448x448_1_0) : (⟨S448x448, .f32⟩ : BufTy).Contents (Elt F) → (⟨S448x448, .f32⟩ : BufTy).Contents (Elt F)),
    binary main_v6 main_v7 main_v8 ((fun l r => Host.dotGeneral dot_S50000x448_S448x448_S50000x448_1_0_0_1_n_n none l r) : (⟨S50000x448, .f32⟩ : BufTy).Contents (Elt F) → (⟨S448x448, .f32⟩ : BufTy).Contents (Elt F) → (⟨S50000x448, .f32⟩ : BufTy).Contents (Elt F)),
    unary main_arg3 main_v9 (broadcastInDim S1x448 ![1] bcast_S448_S1x448_1 : (⟨S448, .f32⟩ : BufTy).Contents (Elt F) → (⟨S1x448, .f32⟩ : BufTy).Contents (Elt F)),
    unary main_v9 main_v10 (broadcastInDim S50000x448 ![0, 1] bcast_S1x448_S50000x448_0_1 : (⟨S1x448, .f32⟩ : BufTy).Contents (Elt F) → (⟨S50000x448, .f32⟩ : BufTy).Contents (Elt F)),
    binary main_v8 main_v10 main_v11 (addf : (⟨S50000x448, .f32⟩ : BufTy).Contents (Elt F) → (⟨S50000x448, .f32⟩ : BufTy).Contents (Elt F) → (⟨S50000x448, .f32⟩ : BufTy).Contents (Elt F)),
    reshape main_v11 main_v12 rfl shapeCasts_S50000x448_S50000x7x64,
    unary main_v4 main_v13 ((extractStridedSlice S50000x12x64 ![0, 7, 0] · slices_S50000x29x64_S50000x12x64_0_7_0) : (⟨S50000x29x64, .f32⟩ : BufTy).Contents (Elt F) → (⟨S50000x12x64, .f32⟩ : BufTy).Contents (Elt F)),
    reshape main_v13 main_v14 rfl shapeCasts_S50000x12x64_S50000x2x384,
    binary main_v14 main_arg4 main_v15 ((fun l r => Host.dotGeneral dot_S50000x2x384_S768x384_S50000x2x768_2_1_01_0_n_n none l r) : (⟨S50000x2x384, .f32⟩ : BufTy).Contents (Elt F) → (⟨S768x384, .f32⟩ : BufTy).Contents (Elt F) → (⟨S50000x2x768, .f32⟩ : BufTy).Contents (Elt F)),
    unary main_v15 main_v16 ((extractStridedSlice S50000x2x384 ![0, 0, 0] · slices_S50000x2x768_S50000x2x384_0_0_0) : (⟨S50000x2x768, .f32⟩ : BufTy).Contents (Elt F) → (⟨S50000x2x384, .f32⟩ : BufTy).Contents (Elt F)),
    unary main_v15 main_v17 ((extractStridedSlice S50000x2x384 ![0, 0, 384] · slices_S50000x2x768_S50000x2x384_0_0_384) : (⟨S50000x2x768, .f32⟩ : BufTy).Contents (Elt F) → (⟨S50000x2x384, .f32⟩ : BufTy).Contents (Elt F)),
    unary main_v16 main_v18 ((extractStridedSlice S50000x1x384 ![0, 0, 0] · slices_S50000x2x384_S50000x1x384_0_0_0) : (⟨S50000x2x384, .f32⟩ : BufTy).Contents (Elt F) → (⟨S50000x1x384, .f32⟩ : BufTy).Contents (Elt F)),
    unary main_v17 main_v19 ((extractStridedSlice S50000x1x384 ![0, 1, 0] · slices_S50000x2x384_S50000x1x384_0_1_0) : (⟨S50000x2x384, .f32⟩ : BufTy).Contents (Elt F) → (⟨S50000x1x384, .f32⟩ : BufTy).Contents (Elt F)),
    binary main_v18 main_v19 main_v20 (subf : (⟨S50000x1x384, .f32⟩ : BufTy).Contents (Elt F) → (⟨S50000x1x384, .f32⟩ : BufTy).Contents (Elt F) → (⟨S50000x1x384, .f32⟩ : BufTy).Contents (Elt F)),
    unary main_v16 main_v21 ((extractStridedSlice S50000x1x384 ![0, 1, 0] · slices_S50000x2x384_S50000x1x384_0_1_0) : (⟨S50000x2x384, .f32⟩ : BufTy).Contents (Elt F) → (⟨S50000x1x384, .f32⟩ : BufTy).Contents (Elt F)),
    unary main_v17 main_v22 ((extractStridedSlice S50000x1x384 ![0, 0, 0] · slices_S50000x2x384_S50000x1x384_0_0_0) : (⟨S50000x2x384, .f32⟩ : BufTy).Contents (Elt F) → (⟨S50000x1x384, .f32⟩ : BufTy).Contents (Elt F)),
    binary main_v21 main_v22 main_v23 (addf : (⟨S50000x1x384, .f32⟩ : BufTy).Contents (Elt F) → (⟨S50000x1x384, .f32⟩ : BufTy).Contents (Elt F) → (⟨S50000x1x384, .f32⟩ : BufTy).Contents (Elt F)),
    binary main_v20 main_v23 main_v24 ((fun a b => concatenate S50000x2x384 1 [⟨S50000x1x384, a⟩, ⟨S50000x1x384, b⟩] concatenates_S50000x1x384_S50000x1x384_S50000x2x384_d1) : (⟨S50000x1x384, .f32⟩ : BufTy).Contents (Elt F) → (⟨S50000x1x384, .f32⟩ : BufTy).Contents (Elt F) → (⟨S50000x2x384, .f32⟩ : BufTy).Contents (Elt F)),
    reshape main_v24 main_v25 rfl shapeCasts_S50000x2x384_S50000x12x64,
    unary main_v4 main_v26 ((extractStridedSlice S50000x10x64 ![0, 19, 0] · slices_S50000x29x64_S50000x10x64_0_19_0) : (⟨S50000x29x64, .f32⟩ : BufTy).Contents (Elt F) → (⟨S50000x10x64, .f32⟩ : BufTy).Contents (Elt F)),
    reshape main_v26 main_v27 rfl shapeCasts_S50000x10x64_S50000x2x320,
    binary main_v27 main_arg5 main_v28 ((fun l r => Host.dotGeneral dot_S50000x2x320_S640x320_S50000x2x640_2_1_01_0_n_n none l r) : (⟨S50000x2x320, .f32⟩ : BufTy).Contents (Elt F) → (⟨S640x320, .f32⟩ : BufTy).Contents (Elt F) → (⟨S50000x2x640, .f32⟩ : BufTy).Contents (Elt F)),
    unary main_v28 main_v29 ((extractStridedSlice S50000x2x320 ![0, 0, 0] · slices_S50000x2x640_S50000x2x320_0_0_0) : (⟨S50000x2x640, .f32⟩ : BufTy).Contents (Elt F) → (⟨S50000x2x320, .f32⟩ : BufTy).Contents (Elt F)),
    unary main_v28 main_v30 ((extractStridedSlice S50000x2x320 ![0, 0, 320] · slices_S50000x2x640_S50000x2x320_0_0_320) : (⟨S50000x2x640, .f32⟩ : BufTy).Contents (Elt F) → (⟨S50000x2x320, .f32⟩ : BufTy).Contents (Elt F)),
    unary main_v29 main_v31 ((extractStridedSlice S50000x1x320 ![0, 0, 0] · slices_S50000x2x320_S50000x1x320_0_0_0) : (⟨S50000x2x320, .f32⟩ : BufTy).Contents (Elt F) → (⟨S50000x1x320, .f32⟩ : BufTy).Contents (Elt F)),
    unary main_v30 main_v32 ((extractStridedSlice S50000x1x320 ![0, 1, 0] · slices_S50000x2x320_S50000x1x320_0_1_0) : (⟨S50000x2x320, .f32⟩ : BufTy).Contents (Elt F) → (⟨S50000x1x320, .f32⟩ : BufTy).Contents (Elt F)),
    binary main_v31 main_v32 main_v33 (subf : (⟨S50000x1x320, .f32⟩ : BufTy).Contents (Elt F) → (⟨S50000x1x320, .f32⟩ : BufTy).Contents (Elt F) → (⟨S50000x1x320, .f32⟩ : BufTy).Contents (Elt F)),
    unary main_v29 main_v34 ((extractStridedSlice S50000x1x320 ![0, 1, 0] · slices_S50000x2x320_S50000x1x320_0_1_0) : (⟨S50000x2x320, .f32⟩ : BufTy).Contents (Elt F) → (⟨S50000x1x320, .f32⟩ : BufTy).Contents (Elt F)),
    unary main_v30 main_v35 ((extractStridedSlice S50000x1x320 ![0, 0, 0] · slices_S50000x2x320_S50000x1x320_0_0_0) : (⟨S50000x2x320, .f32⟩ : BufTy).Contents (Elt F) → (⟨S50000x1x320, .f32⟩ : BufTy).Contents (Elt F)),
    binary main_v34 main_v35 main_v36 (addf : (⟨S50000x1x320, .f32⟩ : BufTy).Contents (Elt F) → (⟨S50000x1x320, .f32⟩ : BufTy).Contents (Elt F) → (⟨S50000x1x320, .f32⟩ : BufTy).Contents (Elt F)),
    binary main_v33 main_v36 main_v37 ((fun a b => concatenate S50000x2x320 1 [⟨S50000x1x320, a⟩, ⟨S50000x1x320, b⟩] concatenates_S50000x1x320_S50000x1x320_S50000x2x320_d1) : (⟨S50000x1x320, .f32⟩ : BufTy).Contents (Elt F) → (⟨S50000x1x320, .f32⟩ : BufTy).Contents (Elt F) → (⟨S50000x2x320, .f32⟩ : BufTy).Contents (Elt F)),
    reshape main_v37 main_v38 rfl shapeCasts_S50000x2x320_S50000x10x64,
    nary ![main_v12, main_v25, main_v38] main_v39 (fun u => concatenate S50000x29x64 1 [⟨S50000x7x64, u 0⟩, ⟨S50000x12x64, u 1⟩, ⟨S50000x10x64, u 2⟩] concatenates_S50000x7x64_S50000x12x64_S50000x10x64_S50000x29x64_d1),
    nullary main_c_4 (constantI S_ 32 29#32),
    unary main_c_4 main_v40 (broadcastInDim S29 ![] bcast_S_S29 : (⟨S_, .i32⟩ : BufTy).Contents (Elt F) → (⟨S29, .i32⟩ : BufTy).Contents (Elt F)),
    binary main_c_1 main_v40 main_v41 (addi : (⟨S29, .i32⟩ : BufTy).Contents (Elt F) → (⟨S29, .i32⟩ : BufTy).Contents (Elt F) → (⟨S29, .i32⟩ : BufTy).Contents (Elt F)),
    ternary main_c_2 main_v41 main_c_1 main_v42 (select : (⟨S29, .i1⟩ : BufTy).Contents (Elt F) → (⟨S29, .i32⟩ : BufTy).Contents (Elt F) → (⟨S29, .i32⟩ : BufTy).Contents (Elt F) → (⟨S29, .i32⟩ : BufTy).Contents (Elt F)),
    unary main_v42 main_v43 (broadcastInDim S29x1 ![0] bcast_S29_S29x1_0 : (⟨S29, .i32⟩ : BufTy).Contents (Elt F) → (⟨S29x1, .i32⟩ : BufTy).Contents (Elt F)),
    binary main_v39 main_v43 main_v44 ((fun x i => Host.gather gather_S50000x29x64_S29x1_S50000x29x64_02_1_n_n_1_1_50000164 x i) : (⟨S50000x29x64, .f32⟩ : BufTy).Contents (Elt F) → (⟨S29x1, .i32⟩ : BufTy).Contents (Elt F) → (⟨S50000x29x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., unary_bufs_sub .., binary_bufs_sub .., reshape_bufs_sub .., unary_bufs_sub .., reshape_bufs_sub .., binary_bufs_sub .., unary_bufs_sub .., unary_bufs_sub .., unary_bufs_sub .., unary_bufs_sub .., binary_bufs_sub .., unary_bufs_sub .., unary_bufs_sub .., binary_bufs_sub .., binary_bufs_sub .., reshape_bufs_sub .., unary_bufs_sub .., reshape_bufs_sub .., binary_bufs_sub .., unary_bufs_sub .., unary_bufs_sub .., unary_bufs_sub .., unary_bufs_sub .., binary_bufs_sub .., unary_bufs_sub .., unary_bufs_sub .., binary_bufs_sub .., binary_bufs_sub .., reshape_bufs_sub .., nary_bufs_sub .., nullary_bufs_sub .., unary_bufs_sub .., binary_bufs_sub .., ternary_bufs_sub .., unary_bufs_sub .., binary_bufs_sub ..⟩

set_option maxHeartbeats 4000000 in
/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = refOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v44).trans (by after_results3; rfl),
      (h c main_arg0).trans (by after_results3),
      (h c main_arg1).trans (by after_results3),
      (h c main_arg2).trans (by after_results3),
      (h c main_arg3).trans (by after_results3),
      (h c main_arg4).trans (by after_results3),
      (h c main_arg5).trans (by after_results3)⟩)
    (run_seq scopedRefs_eq scopedSems_eq defs main (fun _ => ops) main_eq (fun _ => ops_sub) m ρ)

end Cert.ReferenceIdeal.RefRun

end
-- ==== Proof.LibRowDot.lean ====
/-
  A batched-rows matrix product read at an entry.

  The host's `dot_general` of a left operand `[B, N, K]` and a right operand `[O, K]`, contracting the left operand's
  axis 2 with the right operand's axis 1, no batch axis (the left operand's free axes 0 and 1 come first in the result,
  then the right operand's free axis 0): the result `[B, N, O]` at entry `(b, n, o)` is, over the extended reals,
  `∑ k : Fin K, lhs (b, n, k) * rhs (o, k)` — what `jnp.einsum('enk,ok->eno', …)` lowers to.
-/
import Idealize.ShloMosaic.Lib.ValueIdx
import Idealize.ShloMosaic.PureOps.Ideal.Laws

noncomputable section

namespace Cert.Lib.RowDot

open Idealize.ShloMosaic Idealize.ShloMosaic.ValueIdx

variable {B N K O : Nat}

/-- Those dimension numbers; their conditions `wf` are decided on a program's literal shapes. -/
abbrev rowDims (B N K O : Nat)
    (wf : DotDims.WF ⟨3, ![B, N, K]⟩ ⟨2, ![O, K]⟩ ⟨3, ![B, N, O]⟩ [2] [1] [0, 1] [0] [] []) :
    DotDims ⟨3, ![B, N, K]⟩ ⟨2, ![O, K]⟩ ⟨3, ![B, N, O]⟩ where
  lhsContracting := [2]
  rhsContracting := [1]
  lhsNonContracting := [0, 1]
  rhsNonContracting := [0]
  lhsBatch := []
  rhsBatch := []
  wf := wf

section Axes

variable (wf : DotDims.WF ⟨3, ![B, N, K]⟩ ⟨2, ![O, K]⟩ ⟨3, ![B, N, O]⟩ [2] [1] [0, 1] [0] [] [])

/-- The contraction index of this product is its one coordinate, a number below `K`. -/
abbrev kEquiv : (rowDims B N K O wf).contr.Idx ≃ Fin K :=
  contrEquiv1 (rowDims B N K O wf) K rfl rfl

/-- The left operand's axis 0 is its first free axis: it reads the result's axis 0. -/
theorem lhs_axis0 (j : (⟨3, ![B, N, O]⟩ : Shape).Idx) (c : (rowDims B N K O wf).contr.Idx) :
    ((rowDims B N K O wf).lhsIdx j c 0).val = (j 0).val := by
  unfold DotDims.lhsIdx
  rw [dif_neg (show ¬(0 : Fin (⟨3, ![B, N, K]⟩ : Shape).rank) ∈ (rowDims B N K O wf).lhsBatch from List.not_mem_nil),
    dif_pos (show (0 : Fin (⟨3, ![B, N, K]⟩ : Shape).rank) ∈ (rowDims B N K O wf).lhsNonContracting from
      List.mem_cons_self)]
  rfl

/-- The left operand's axis 1 is its second free axis: it reads the result's axis 1. -/
theorem lhs_axis1 (j : (⟨3, ![B, N, O]⟩ : Shape).Idx) (c : (rowDims B N K O wf).contr.Idx) :
    ((rowDims B N K O wf).lhsIdx j c 1).val = (j 1).val := by
  unfold DotDims.lhsIdx
  rw [dif_neg (show ¬(1 : Fin (⟨3, ![B, N, K]⟩ : Shape).rank) ∈ (rowDims B N K O wf).lhsBatch from List.not_mem_nil),
    dif_pos (show (1 : Fin (⟨3, ![B, N, K]⟩ : Shape).rank) ∈ (rowDims B N K O wf).lhsNonContracting from
      List.mem_cons_of_mem _ List.mem_cons_self)]
  rfl

/-- The left operand's axis 2 is the contracted one: it reads the contraction position. -/
theorem lhs_axis2 (j : (⟨3, ![B, N, O]⟩ : Shape).Idx) (c : (rowDims B N K O wf).contr.Idx) :
    ((rowDims B N K O wf).lhsIdx j c 2).val = (c ⟨0, Nat.one_pos⟩).val :=
  (rowDims B N K O wf).lhsIdx_val_of_single rfl j c

/-- The right operand's axis 0 is its free axis: it reads the result's axis 2, after the left operand's two. -/
theorem rhs_axis0 (j : (⟨3, ![B, N, O]⟩ : Shape).Idx) (c : (rowDims B N K O wf).contr.Idx) :
    ((rowDims B N K O wf).rhsIdx j c 0).val = (j 2).val := by
  unfold DotDims.rhsIdx
  rw [dif_neg (show ¬(0 : Fin (⟨2, ![O, K]⟩ : Shape).rank) ∈ (rowDims B N K O wf).rhsBatch from List.not_mem_nil),
    dif_pos (show (0 : Fin (⟨2, ![O, K]⟩ : Shape).rank) ∈ (rowDims B N K O wf).rhsNonContracting from
      List.mem_singleton.2 rfl)]
  rfl

/-- The right operand's axis 1 is the contracted one: it reads the contraction position. -/
theorem rhs_axis1 (j : (⟨3, ![B, N, O]⟩ : Shape).Idx) (c : (rowDims B N K O wf).contr.Idx) :
    ((rowDims B N K O wf).rhsIdx j c 1).val = (c ⟨0, Nat.one_pos⟩).val :=
  (rowDims B N K O wf).rhsIdx_val_of_single rfl j c

/-- At result entry `(b, n, o)` and contraction position `k` the left operand is read at `(b, n, k)`. -/
theorem lhsIdx_eq (b : Fin B) (n : Fin N) (o : Fin O) (k : Fin K) :
    (rowDims B N K O wf).lhsIdx (ix3 b n o) ((kEquiv wf).symm k) = ix3 b n k := by
  have hk := contrEquiv1_symm_val (rowDims B N K O wf) K rfl rfl k
  exact funext fun a => Fin.ext (by
    match a with
    | ⟨0, _⟩ => exact lhs_axis0 wf _ _
    | ⟨1, _⟩ => exact lhs_axis1 wf _ _
    | ⟨2, _⟩ => exact (lhs_axis2 wf _ _).trans hk)

/-- At result entry `(b, n, o)` and contraction position `k` the right operand is read at `(o, k)`. -/
theorem rhsIdx_eq (b : Fin B) (n : Fin N) (o : Fin O) (k : Fin K) :
    (rowDims B N K O wf).rhsIdx (ix3 b n o) ((kEquiv wf).symm k) = ix2 o k := by
  have hk := contrEquiv1_symm_val (rowDims B N K O wf) K rfl rfl k
  exact funext fun a => Fin.ext (by
    match a with
    | ⟨0, _⟩ => exact rhs_axis0 wf _ _
    | ⟨1, _⟩ => exact (rhs_axis1 wf _ _).trans hk)

/-- The sum over the product's contraction index, as a sum over `Fin K` of the operands' entries. -/
theorem sum_contr {φ₁ φ₂ : FTy} (lhs : FVec Ideal ⟨3, ![B, N, K]⟩ φ₁) (rhs : FVec Ideal ⟨2, ![O, K]⟩ φ₂)
    (b : Fin B) (n : Fin N) (o : Fin O) :
    (∑ c : (rowDims B N K O wf).contr.Idx,
        lhs ((rowDims B N K O wf).lhsIdx (ix3 b n o) c) * rhs ((rowDims B N K O wf).rhsIdx (ix3 b n o) c) : EReal)
      = ∑ k : Fin K, lhs (ix3 b n k) * rhs (ix2 o k) := by
  rw [← Equiv.sum_comp (kEquiv wf).symm]
  refine Finset.sum_congr rfl fun k _ => ?_
  rw [lhsIdx_eq, rhsIdx_eq]

end Axes

/-- The host's `dot_general` with those dimension numbers, at entry `(b, n, o)`. -/
theorem dotGeneral_apply {φ₁ φ₂ : FTy}
    (wf : DotDims.WF ⟨3, ![B, N, K]⟩ ⟨2, ![O, K]⟩ ⟨3, ![B, N, O]⟩ [2] [1] [0, 1] [0] [] [])
    (prec : Option ContractPrecision) (sched : HostSchedule)
    (lhs : FVec Ideal ⟨3, ![B, N, K]⟩ φ₁) (rhs : FVec Ideal ⟨2, ![O, K]⟩ φ₂) (b : Fin B) (n : Fin N) (o : Fin O) :
    FloatOps.dotGeneral (rowDims B N K O wf) prec sched lhs rhs (ix3 b n o)
      = ∑ k : Fin K, lhs (ix3 b n k) * rhs (ix2 o k) := by
  rw [Ideal.dotGeneral_apply]
  exact sum_contr wf lhs rhs b n o

end Cert.Lib.RowDot

end
-- ==== Proof.RefPath0.lean ====
/-
  The reference's m = 0 path, read at an entry (of the three paths described below, this module proves the first).

  Over a VARIABLE `x` for the input in m-primary row order: row `p` of `x` is row `toM p` of `X`. The m = 0 path at
  row `q` of its 7 and channel `c` is the specification's `gA`; the m = 1 path's 12 rows are 6 real rows (`gB`) then 6
  imaginary rows (`gC`); the m = 2 path's 10 rows are 5 real rows (`gD`) then 5 imaginary rows (`gE`). Each goes
  through a slice of the run's rows, a reshape to one flat vector (or a real and an imaginary one) per edge, a product
  with the weight matrix read as a sum over the flat position `k` (row `k / 64` of the run, channel `k % 64`), the
  complex combination, and a reshape back to rows of 64 (row `q`, channel `c` is flat position `64 q + c`).
-/
import proofs.«144405_j70824010711660_1_alg».proof.Proof.RefTerm
import proofs.«144405_j70824010711660_1_alg».proof.Proof.Spec
import proofs.«144405_j70824010711660_1_alg».proof.Proof.LibPlainDot
import proofs.«144405_j70824010711660_1_alg».proof.Proof.LibRowDot
import Idealize.ShloMosaic.Lib.ValueLayout

noncomputable section

namespace Cert.ReferenceIdeal.RefPaths

open Cert.ReferenceIdeal Cert.ReferenceIdeal.Gen Cert.ReferenceIdeal.RefTerm Idealize.ShloMosaic Idealize.ShloMosaic.ValueIdx Cert.Spec

/-- The printed dimension numbers of the m = 0 product are the plain ones of a 50000×448 by 448×448 product. -/
private theorem dot0_plain : dot_S50000x448_S448x448_S50000x448_1_0_0_1_n_n = DotDims.plain 50000 448 448 := rfl

variable (X : FVec Ideal S50000x29x64 .f32) (x : FVec Ideal S50000x29x64 .f32)
  (hx : ∀ (e : Fin 50000) (p : Fin 29) (c : Fin 64), x (ix3 e p c) = X (ix3 e (toM p) c))
  (W0 : FVec Ideal S448x448 .f32) (b0 : FVec Ideal S448 .f32) (W1 : FVec Ideal S768x384 .f32) (W2 : FVec Ideal S640x320 .f32)

include hx

/-- The m = 0 path at row `q`, channel `c`. -/
theorem stM0_apply (e : Fin 50000) (q : Fin 7) (c : Fin 64) :
    stM0 (F := Ideal) x W0 b0 (ix3 e q c) = gA (E := 50000) X W0 b0 e q c := by
  unfold stM0
  -- row q, channel c of the reshaped result is flat position 64 q + c
  refine (shapeCast_apply _ shapeCasts_S50000x448_S50000x7x64 (ix3 e q c)
    (ix2 e (⟨64 * q.val + c.val, by omega⟩ : Fin 448)) ?_).trans ?_
  · rw [Shape.rowMajor_val_two, Shape.rowMajor_val_three]
    show e.val * 448 + (64 * q.val + c.val) = (e.val * 7 + q.val) * 64 + c.val
    omega
  rw [addf_apply]
  unfold gA dotSeg
  refine congrArg₂ (· + ·) ?_ ?_
  · -- the product: a sum over the flat position k
    simp only [Host.dotGeneral]
    rw [dot0_plain]
    refine (Cert.Lib.PlainDot.dotGeneral_apply none .single _ _ e _).trans ?_
    refine Finset.sum_congr rfl fun k _ => ?_
    refine congrArg₂ (· * ·) ?_ ?_
    · -- flat position k of the 7 rows is row k / 64, channel k % 64
      have hk := k.isLt
      refine (shapeCast_apply _ shapeCasts_S50000x7x64_S50000x448 (ix2 e k)
        (ix3 e (⟨0 + k.val / 64, by omega⟩ : Fin 7) (⟨k.val % 64, by omega⟩ : Fin 64)) ?_).trans ?_
      · rw [Shape.rowMajor_val_two, Shape.rowMajor_val_three]
        show (e.val * 7 + (0 + k.val / 64)) * 64 + k.val % 64 = e.val * 448 + k.val
        omega
      refine (extractStridedSlice_apply ![0, 0, 0] x slices_S50000x29x64_S50000x7x64_0_0_0 _
        (ix3 e (⟨0 + k.val / 64, by omega⟩ : Fin 29) (⟨k.val % 64, by omega⟩ : Fin 64)) ?_).trans ?_
      · intro a
        match a with
        | ⟨0, _⟩ => show e.val = 0 + e.val; omega
        | ⟨1, _⟩ => show 0 + k.val / 64 = 0 + (0 + k.val / 64); omega
        | ⟨2, _⟩ => show k.val % 64 = 0 + k.val % 64; omega
      rw [hx]
      rfl
    · exact transpose_ix2_apply W0 transposes_S448x448_S448x448_1_0 _ _
  · -- the bias row, broadcast over the edges
    refine (broadcastInDim_apply ![0, 1] bcast_S1x448_S50000x448_0_1 _ _
      (ix2 (0 : Fin 1) (⟨64 * q.val + c.val, by omega⟩ : Fin 448)) ?_).trans ?_
    · intro a
      match a with
      | ⟨0, _⟩ => rfl
      | ⟨1, _⟩ => rfl
    refine broadcastInDim_apply ![1] bcast_S448_S1x448_1 b0 _ (ix1 (⟨64 * q.val + c.val, by omega⟩ : Fin 448)) ?_
    intro a
    match a with
    | ⟨0, _⟩ => rfl

end Cert.ReferenceIdeal.RefPaths

end
-- ==== Proof.RefPath1.lean ====
/-
  The reference's m = 1 path, read at an entry (of the three paths described below, this module proves the second).

  Over a VARIABLE `x` for the input in m-primary row order: row `p` of `x` is row `toM p` of `X`. The m = 0 path at
  row `q` of its 7 and channel `c` is the specification's `gA`; the m = 1 path's 12 rows are 6 real rows (`gB`) then 6
  imaginary rows (`gC`); the m = 2 path's 10 rows are 5 real rows (`gD`) then 5 imaginary rows (`gE`). Each goes
  through a slice of the run's rows, a reshape to one flat vector (or a real and an imaginary one) per edge, a product
  with the weight matrix read as a sum over the flat position `k` (row `k / 64` of the run, channel `k % 64`), the
  complex combination, and a reshape back to rows of 64 (row `q`, channel `c` is flat position `64 q + c`).
-/
import proofs.«144405_j70824010711660_1_alg».proof.Proof.RefTerm
import proofs.«144405_j70824010711660_1_alg».proof.Proof.Spec
import proofs.«144405_j70824010711660_1_alg».proof.Proof.LibPlainDot
import proofs.«144405_j70824010711660_1_alg».proof.Proof.LibRowDot
import Idealize.ShloMosaic.Lib.Pipeline.Value

noncomputable section

namespace Cert.ReferenceIdeal.RefPaths

open Cert.ReferenceIdeal Cert.ReferenceIdeal.Gen Cert.ReferenceIdeal.RefTerm Idealize.ShloMosaic Idealize.ShloMosaic.ValueIdx Cert.Spec

variable (X : FVec Ideal S50000x29x64 .f32) (x : FVec Ideal S50000x29x64 .f32)
  (hx : ∀ (e : Fin 50000) (p : Fin 29) (c : Fin 64), x (ix3 e p c) = X (ix3 e (toM p) c))
  (W0 : FVec Ideal S448x448 .f32) (b0 : FVec Ideal S448 .f32) (W1 : FVec Ideal S768x384 .f32) (W2 : FVec Ideal S640x320 .f32)

/-- The printed dimension numbers of the m = 1 product are the batched-rows ones. -/
theorem dot1_eq :
    dot_S50000x2x384_S768x384_S50000x2x768_2_1_01_0_n_n
      = Cert.Lib.RowDot.rowDims 50000 2 384 768 dot_S50000x2x384_S768x384_S50000x2x768_2_1_01_0_n_n_wf := rfl

/-- The left operand of the m = 1 product at `(e, n, k)`: flat position `k` of half `n` of the run's 12 rows is row
    `7 + 6 n + k / 64` of `x`, channel `k % 64`. -/
theorem lhs1_apply (e : Fin 50000) (n : Fin 2) (k : Fin 384) (p : Fin 29) (hp : p.val = 7 + 6 * n.val + k.val / 64) :
    shapeCast S50000x2x384 (extractStridedSlice S50000x12x64 ![0, 7, 0] x slices_S50000x29x64_S50000x12x64_0_7_0)
        shapeCasts_S50000x12x64_S50000x2x384 (ix3 e n k)
      = x (ix3 e p (⟨k.val % 64, by omega⟩ : Fin 64)) := by
  have hn := n.isLt
  have hk := k.isLt
  refine (shapeCast_apply _ _ (ix3 e n k)
    (ix3 e (⟨6 * n.val + k.val / 64, by omega⟩ : Fin 12) (⟨k.val % 64, by omega⟩ : Fin 64)) ?_).trans ?_
  · rw [Shape.rowMajor_val_three, Shape.rowMajor_val_three]
    show (e.val * 12 + (6 * n.val + k.val / 64)) * 64 + k.val % 64 = (e.val * 2 + n.val) * 384 + k.val
    omega
  · refine extractStridedSlice_apply _ _ _ _ _ fun a => ?_
    match a with
    | ⟨0, _⟩ => show e.val = 0 + e.val; omega
    | ⟨1, _⟩ => show p.val = 7 + (6 * n.val + k.val / 64); omega
    | ⟨2, _⟩ => show k.val % 64 = 0 + k.val % 64; omega

include hx

/-- The product of the real run (rows 7 to 12) with row `o` of `W1`. -/
theorem y1_re (e : Fin 50000) (o : Fin 768) :
    y1 (F := Ideal) x W1 (ix3 e (0 : Fin 2) o) = dotSeg (E := 50000) X W1 e 7 (K := 384) (by omega) o := by
  unfold y1
  simp only [Host.dotGeneral]
  rw [dot1_eq, Cert.Lib.RowDot.dotGeneral_apply]
  unfold dotSeg
  refine Finset.sum_congr rfl fun k _ => ?_
  have hk := k.isLt
  rw [lhs1_apply x e 0 k (⟨7 + k.val / 64, by omega⟩ : Fin 29) (by show 7 + k.val / 64 = 7 + 6 * 0 + k.val / 64; omega), hx]
  rfl

/-- The product of the imaginary run (rows 13 to 18) with row `o` of `W1`. -/
theorem y1_im (e : Fin 50000) (o : Fin 768) :
    y1 (F := Ideal) x W1 (ix3 e (1 : Fin 2) o) = dotSeg (E := 50000) X W1 e 13 (K := 384) (by omega) o := by
  unfold y1
  simp only [Host.dotGeneral]
  rw [dot1_eq, Cert.Lib.RowDot.dotGeneral_apply]
  unfold dotSeg
  refine Finset.sum_congr rfl fun k _ => ?_
  have hk := k.isLt
  rw [lhs1_apply x e 1 k (⟨13 + k.val / 64, by omega⟩ : Fin 29) (by show 13 + k.val / 64 = 7 + 6 * 1 + k.val / 64; omega), hx]
  rfl

omit hx in
/-- A row of a column half of the products: the slice of columns `A` to `A + 383`, then the slice of row `B`, read at
    `(e, 0, o)`, is the products' entry `(e, B, A + o)`. -/
theorem slice2_apply (y : FVec Ideal S50000x2x768 .f32) (A B : Nat)
    (hA : S50000x2x768.Slices ![0, 0, A] S50000x2x384) (hB : S50000x2x384.Slices ![0, B, 0] S50000x1x384)
    (e : Fin 50000) (o : Fin 384) (n : Fin 2) (o' : Fin 768) (hn : n.val = B) (ho : o'.val = A + o.val) :
    extractStridedSlice S50000x1x384 ![0, B, 0] (extractStridedSlice S50000x2x384 ![0, 0, A] y hA) hB (ix3 e (0 : Fin 1) o)
      = y (ix3 e n o') := by
  refine (extractStridedSlice_apply _ _ _ _ (ix3 e n o) fun a => ?_).trans
    (extractStridedSlice_apply _ _ _ _ (ix3 e n o') fun a => ?_)
  · match a with
    | ⟨0, _⟩ => show e.val = 0 + e.val; omega
    | ⟨1, _⟩ => show n.val = B + 0; omega
    | ⟨2, _⟩ => show o.val = 0 + o.val; omega
  · match a with
    | ⟨0, _⟩ => show e.val = 0 + e.val; omega
    | ⟨1, _⟩ => show n.val = 0 + n.val; omega
    | ⟨2, _⟩ => show o'.val = A + o.val; omega

/-- The m = 1 path's real rows: its rows 0 to 5. -/
theorem stM1_re_apply (e : Fin 50000) (q : Fin 6) (c : Fin 64) :
    stM1 (F := Ideal) x W1 (ix3 e (⟨q.val, by omega⟩ : Fin 12) c) = gB (E := 50000) X W1 e q c := by
  have hq := q.isLt
  have hc := c.isLt
  unfold stM1
  -- row `q`, channel `c` of the 12 rows is flat position `64 q + c` of the first (real) vector
  refine (shapeCast_apply _ _ (ix3 e (⟨q.val, by omega⟩ : Fin 12) c)
    (ix3 e (0 : Fin 2) (⟨64 * q.val + c.val, by omega⟩ : Fin 384)) ?_).trans ?_
  · rw [Shape.rowMajor_val_three, Shape.rowMajor_val_three]
    show (e.val * 2 + 0) * 384 + (64 * q.val + c.val) = (e.val * 12 + q.val) * 64 + c.val
    omega
  refine (concatenate_pair_apply_left (t := S50000x2x384) (s₁ := S50000x1x384) (s₂ := S50000x1x384) (1 : Fin 3) _ _ _
    (ix3 e (0 : Fin 2) (⟨64 * q.val + c.val, by omega⟩ : Fin 384)) rfl
    (ix3 e (0 : Fin 1) (⟨64 * q.val + c.val, by omega⟩ : Fin 384)) fun b => ?_).trans ?_
  · match b with
    | ⟨0, _⟩ => rfl
    | ⟨1, _⟩ => rfl
    | ⟨2, _⟩ => rfl
  rw [subf_apply,
    slice2_apply (y1 x W1) 0 0 _ _ e _ (0 : Fin 2) (⟨64 * q.val + c.val, by omega⟩ : Fin 768) rfl (by show 64 * q.val + c.val = 0 + (64 * q.val + c.val); omega),
    slice2_apply (y1 x W1) 384 1 _ _ e _ (1 : Fin 2) (⟨384 + (64 * q.val + c.val), by omega⟩ : Fin 768) rfl rfl,
    y1_re X x hx W1, y1_im X x hx W1]
  rfl

/-- The m = 1 path's imaginary rows: its rows 6 to 11. -/
theorem stM1_im_apply (e : Fin 50000) (q : Fin 6) (c : Fin 64) :
    stM1 (F := Ideal) x W1 (ix3 e (⟨6 + q.val, by omega⟩ : Fin 12) c) = gC (E := 50000) X W1 e q c := by
  have hq := q.isLt
  have hc := c.isLt
  unfold stM1
  -- row `6 + q`, channel `c` of the 12 rows is flat position `64 q + c` of the second (imaginary) vector
  refine (shapeCast_apply _ _ (ix3 e (⟨6 + q.val, by omega⟩ : Fin 12) c)
    (ix3 e (1 : Fin 2) (⟨64 * q.val + c.val, by omega⟩ : Fin 384)) ?_).trans ?_
  · rw [Shape.rowMajor_val_three, Shape.rowMajor_val_three]
    show (e.val * 2 + 1) * 384 + (64 * q.val + c.val) = (e.val * 12 + (6 + q.val)) * 64 + c.val
    omega
  refine (concatenate_pair_apply_right (t := S50000x2x384) (s₁ := S50000x1x384) (s₂ := S50000x1x384) (1 : Fin 3) _ _ _
    (ix3 e (1 : Fin 2) (⟨64 * q.val + c.val, by omega⟩ : Fin 384)) rfl rfl
    (ix3 e (0 : Fin 1) (⟨64 * q.val + c.val, by omega⟩ : Fin 384)) (fun b hb => ?_) rfl).trans ?_
  · match b with
    | ⟨0, _⟩ => rfl
    | ⟨1, _⟩ => exact absurd rfl hb
    | ⟨2, _⟩ => rfl
  rw [addf_apply,
    slice2_apply (y1 x W1) 0 1 _ _ e _ (1 : Fin 2) (⟨64 * q.val + c.val, by omega⟩ : Fin 768) rfl (by show 64 * q.val + c.val = 0 + (64 * q.val + c.val); omega),
    slice2_apply (y1 x W1) 384 0 _ _ e _ (0 : Fin 2) (⟨384 + (64 * q.val + c.val), by omega⟩ : Fin 768) rfl rfl,
    y1_im X x hx W1, y1_re X x hx W1]
  rfl

end Cert.ReferenceIdeal.RefPaths

end
-- ==== Proof.RefPath2.lean ====
/-
  The reference's m = 2 path, read at an entry (of the three paths described below, this module proves the third).

  Over a VARIABLE `x` for the input in m-primary row order: row `p` of `x` is row `toM p` of `X`. The m = 0 path at
  row `q` of its 7 and channel `c` is the specification's `gA`; the m = 1 path's 12 rows are 6 real rows (`gB`) then 6
  imaginary rows (`gC`); the m = 2 path's 10 rows are 5 real rows (`gD`) then 5 imaginary rows (`gE`). Each goes
  through a slice of the run's rows, a reshape to one flat vector (or a real and an imaginary one) per edge, a product
  with the weight matrix read as a sum over the flat position `k` (row `k / 64` of the run, channel `k % 64`), the
  complex combination, and a reshape back to rows of 64 (row `q`, channel `c` is flat position `64 q + c`).
-/
import proofs.«144405_j70824010711660_1_alg».proof.Proof.RefTerm
import proofs.«144405_j70824010711660_1_alg».proof.Proof.Spec
import proofs.«144405_j70824010711660_1_alg».proof.Proof.LibPlainDot
import proofs.«144405_j70824010711660_1_alg».proof.Proof.LibRowDot
import Idealize.ShloMosaic.Lib.Pipeline.Value

noncomputable section

namespace Cert.ReferenceIdeal.RefPaths

open Cert.ReferenceIdeal Cert.ReferenceIdeal.Gen Cert.ReferenceIdeal.RefTerm Idealize.ShloMosaic Idealize.ShloMosaic.ValueIdx Cert.Spec

variable (X : FVec Ideal S50000x29x64 .f32) (x : FVec Ideal S50000x29x64 .f32)
  (hx : ∀ (e : Fin 50000) (p : Fin 29) (c : Fin 64), x (ix3 e p c) = X (ix3 e (toM p) c))
  (W0 : FVec Ideal S448x448 .f32) (b0 : FVec Ideal S448 .f32) (W1 : FVec Ideal S768x384 .f32) (W2 : FVec Ideal S640x320 .f32)

/-- The m = 2 product's dimension numbers are the batched-rows product's. -/
theorem dot2_eq : dot_S50000x2x320_S640x320_S50000x2x640_2_1_01_0_n_n
    = Cert.Lib.RowDot.rowDims 50000 2 320 640 dot_S50000x2x320_S640x320_S50000x2x640_2_1_01_0_n_n_wf := rfl

/-- The run's rows 19 to 28 flattened to two vectors of 320, at (e, n, k): row 19 + (320 n + k) / 64, channel k % 64. -/
theorem run2_apply (e : Fin 50000) (n : Fin 2) (k : Fin 320) :
    shapeCast S50000x2x320 (extractStridedSlice S50000x10x64 ![0, 19, 0] x slices_S50000x29x64_S50000x10x64_0_19_0)
        shapeCasts_S50000x10x64_S50000x2x320 (ix3 e n k)
      = x (ix3 e (⟨19 + (320 * n.val + k.val) / 64, by omega⟩ : Fin 29) (⟨k.val % 64, by omega⟩ : Fin 64)) := by
  have hn := n.isLt
  have hk := k.isLt
  have he := e.isLt
  refine (shapeCast_apply _ _ (ix3 e n k)
    (ix3 e (⟨(320 * n.val + k.val) / 64, by omega⟩ : Fin 10) (⟨k.val % 64, by omega⟩ : Fin 64))
    (by rw [Shape.rowMajor_val_three, Shape.rowMajor_val_three]
        show (e.val * 10 + (320 * n.val + k.val) / 64) * 64 + k.val % 64 = (e.val * 2 + n.val) * 320 + k.val
        omega)).trans ?_
  refine extractStridedSlice_apply _ _ _ _
    (ix3 e (⟨19 + (320 * n.val + k.val) / 64, by omega⟩ : Fin 29) (⟨k.val % 64, by omega⟩ : Fin 64))
    (fun a => match a with
      | ⟨0, _⟩ => by show e.val = 0 + e.val; omega
      | ⟨1, _⟩ => by show 19 + (320 * n.val + k.val) / 64 = 19 + (320 * n.val + k.val) / 64; rfl
      | ⟨2, _⟩ => by show k.val % 64 = 0 + k.val % 64; omega)

/-- A 320-wide column block (from column c0) of the products, then one of its two rows (row r), at (e, 0, o):
    the products at (e, r, c0 + o). -/
theorem half2_apply (Y : FVec Ideal S50000x2x640 .f32) (c0 : Nat) (r : Fin 2)
    (h1 : S50000x2x640.Slices ![0, 0, c0] S50000x2x320) (h2 : S50000x2x320.Slices ![0, r.val, 0] S50000x1x320)
    (e : Fin 50000) (o : Fin 320) (o' : Fin 640) (ho : o'.val = c0 + o.val) :
    extractStridedSlice S50000x1x320 ![0, r.val, 0] (extractStridedSlice S50000x2x320 ![0, 0, c0] Y h1) h2 (ix3 e (0 : Fin 1) o)
      = Y (ix3 e r o') := by
  refine (extractStridedSlice_apply _ _ _ _ (ix3 e r o)
    (fun a => match a with
      | ⟨0, _⟩ => by show e.val = 0 + e.val; omega
      | ⟨1, _⟩ => by show r.val = r.val + 0; omega
      | ⟨2, _⟩ => by show o.val = 0 + o.val; omega)).trans ?_
  refine extractStridedSlice_apply _ _ _ _ (ix3 e r o')
    (fun a => match a with
      | ⟨0, _⟩ => by show e.val = 0 + e.val; omega
      | ⟨1, _⟩ => by show r.val = 0 + r.val; omega
      | ⟨2, _⟩ => by show o'.val = c0 + o.val; exact ho)

include hx

/-- The products' row 0: the real run (m-primary rows 19 to 23) against row o of the weights. -/
theorem y2_re (e : Fin 50000) (o : Fin 640) :
    y2 (F := Ideal) x W2 (ix3 e (0 : Fin 2) o) = dotSeg (E := 50000) X W2 e 19 (K := 320) (by omega) o := by
  unfold y2
  simp only [Host.dotGeneral]
  rw [dot2_eq]
  refine (Cert.Lib.RowDot.dotGeneral_apply _ _ _ _ _ e (0 : Fin 2) o).trans ?_
  unfold dotSeg
  refine Finset.sum_congr rfl fun k _ => ?_
  have hk := k.isLt
  rw [run2_apply, hx]
  unfold seg
  refine congrArg (fun p : Fin 29 => X (ix3 e (toM p) (⟨k.val % 64, by omega⟩ : Fin 64)) * W2 (ix2 o k)) (Fin.ext ?_)
  show 19 + (320 * 0 + k.val) / 64 = 19 + k.val / 64
  omega

/-- The products' row 1: the imaginary run (m-primary rows 24 to 28) against row o of the weights. -/
theorem y2_im (e : Fin 50000) (o : Fin 640) :
    y2 (F := Ideal) x W2 (ix3 e (1 : Fin 2) o) = dotSeg (E := 50000) X W2 e 24 (K := 320) (by omega) o := by
  unfold y2
  simp only [Host.dotGeneral]
  rw [dot2_eq]
  refine (Cert.Lib.RowDot.dotGeneral_apply _ _ _ _ _ e (1 : Fin 2) o).trans ?_
  unfold dotSeg
  refine Finset.sum_congr rfl fun k _ => ?_
  have hk := k.isLt
  rw [run2_apply, hx]
  unfold seg
  refine congrArg (fun p : Fin 29 => X (ix3 e (toM p) (⟨k.val % 64, by omega⟩ : Fin 64)) * W2 (ix2 o k)) (Fin.ext ?_)
  show 19 + (320 * 1 + k.val) / 64 = 24 + k.val / 64
  omega

/-- The m = 2 path's real rows: its rows 0 to 4. -/
theorem stM2_re_apply (e : Fin 50000) (q : Fin 5) (c : Fin 64) :
    stM2 (F := Ideal) x W2 (ix3 e (⟨q.val, by omega⟩ : Fin 10) c) = gD (E := 50000) X W2 e q c := by
  have hq := q.isLt
  have hc := c.isLt
  have he := e.isLt
  unfold stM2
  -- row q of the 10, channel c, is flat position 64 q + c of the combination's row 0
  refine (shapeCast_apply _ _ _ (ix3 e (0 : Fin 2) (⟨64 * q.val + c.val, by omega⟩ : Fin 320))
    (by rw [Shape.rowMajor_val_three, Shape.rowMajor_val_three]
        show (e.val * 2 + 0) * 320 + (64 * q.val + c.val) = (e.val * 10 + q.val) * 64 + c.val
        omega)).trans ?_
  -- row 0 of the two-piece concatenation is the first piece: the real part
  refine (concatenate_pair_apply_left (t := S50000x2x320) (s₁ := S50000x1x320) (s₂ := S50000x1x320) 1 _ _
    concatenates_S50000x1x320_S50000x1x320_S50000x2x320_d1
    (ix3 e (0 : Fin 2) (⟨64 * q.val + c.val, by omega⟩ : Fin 320)) rfl
    (ix3 e (0 : Fin 1) (⟨64 * q.val + c.val, by omega⟩ : Fin 320))
    (fun b => match b with | ⟨0, _⟩ => rfl | ⟨1, _⟩ => rfl | ⟨2, _⟩ => rfl)).trans ?_
  rw [subf_apply]
  -- real run times the first half of the weights, less imaginary run times the second half
  refine (congrArg₂ (fun a b : EReal => a - b)
    ((half2_apply _ 0 (0 : Fin 2) _ _ e _ (⟨64 * q.val + c.val, by omega⟩ : Fin 640)
        (by show 64 * q.val + c.val = 0 + (64 * q.val + c.val); omega)).trans (y2_re X x hx W2 e _))
    ((half2_apply _ 320 (1 : Fin 2) _ _ e _ (⟨320 + (64 * q.val + c.val), by omega⟩ : Fin 640) rfl).trans
      (y2_im X x hx W2 e _))).trans ?_
  rfl

/-- The m = 2 path's imaginary rows: its rows 5 to 9. -/
theorem stM2_im_apply (e : Fin 50000) (q : Fin 5) (c : Fin 64) :
    stM2 (F := Ideal) x W2 (ix3 e (⟨5 + q.val, by omega⟩ : Fin 10) c) = gE (E := 50000) X W2 e q c := by
  have hq := q.isLt
  have hc := c.isLt
  have he := e.isLt
  unfold stM2
  -- row 5 + q of the 10, channel c, is flat position 64 q + c of the combination's row 1
  refine (shapeCast_apply _ _ _ (ix3 e (1 : Fin 2) (⟨64 * q.val + c.val, by omega⟩ : Fin 320))
    (by rw [Shape.rowMajor_val_three, Shape.rowMajor_val_three]
        show (e.val * 2 + 1) * 320 + (64 * q.val + c.val) = (e.val * 10 + (5 + q.val)) * 64 + c.val
        omega)).trans ?_
  -- row 1 of the two-piece concatenation is the second piece's row 0: the imaginary part
  refine (concatenate_pair_apply_right (t := S50000x2x320) (s₁ := S50000x1x320) (s₂ := S50000x1x320) 1 _ _
    concatenates_S50000x1x320_S50000x1x320_S50000x2x320_d1
    (ix3 e (1 : Fin 2) (⟨64 * q.val + c.val, by omega⟩ : Fin 320)) rfl rfl
    (ix3 e (0 : Fin 1) (⟨64 * q.val + c.val, by omega⟩ : Fin 320))
    (fun b => match b with
      | ⟨0, _⟩ => fun _ => rfl
      | ⟨1, _⟩ => fun h => absurd rfl h
      | ⟨2, _⟩ => fun _ => rfl)
    rfl).trans ?_
  rw [addf_apply]
  -- imaginary run times the first half of the weights, plus real run times the second half
  refine (congrArg₂ (fun a b : EReal => a + b)
    ((half2_apply _ 0 (1 : Fin 2) _ _ e _ (⟨64 * q.val + c.val, by omega⟩ : Fin 640)
        (by show 64 * q.val + c.val = 0 + (64 * q.val + c.val); omega)).trans (y2_im X x hx W2 e _))
    ((half2_apply _ 320 (0 : Fin 2) _ _ e _ (⟨320 + (64 * q.val + c.val), by omega⟩ : Fin 640) rfl).trans
      (y2_re X x hx W2 e _))).trans ?_
  rfl

end Cert.ReferenceIdeal.RefPaths

end
-- ==== Proof.RefPaths.lean ====
/-
  The reference's three paths read at an entry: the m = 0 path (`stM0_apply`), the m = 1 path's real and imaginary rows
  (`stM1_re_apply`, `stM1_im_apply`) and the m = 2 path's (`stM2_re_apply`, `stM2_im_apply`), one module each.
-/
import proofs.«144405_j70824010711660_1_alg».proof.Proof.RefPath0
import proofs.«144405_j70824010711660_1_alg».proof.Proof.RefPath1
import proofs.«144405_j70824010711660_1_alg».proof.Proof.RefPath2
-- ==== Proof.LibGatherMid.lean ====
/-
  A gather along the middle axis read at an entry.

  What `x[:, idx, :]` of an array `x : [A, B, C]` at an integer vector `idx : [R]` lowers to: `stablehlo.gather` with
  offset_dims `[0, 2]`, collapsed_slice_dims `[1]`, start_index_map `[1]`, index_vector_dim 1 and slice sizes
  `[A, 1, C]` over the indices as `[R, 1]`. Result entry `(a, r, c)` is `x` at `(a, i, c)` with `i` the start index
  `idx[r, 0]` read as a signed integer and clamped into `[0, B − 1]`, as the gather clamps every start index.
-/
import Idealize.ShloMosaic.Lib.ValueIdx

noncomputable section

namespace Cert.Lib.GatherMid

open Idealize.ShloMosaic Idealize.ShloMosaic.ValueIdx

variable {α : Type}

/-- Those dimension numbers for an operand `[A, B, C]`, start indices `[R, 1]` and result `[A, R, C]`; their conditions
    `wf` are decided on a program's literal shapes. -/
abbrev midDims (A B C R : Nat)
    (wf : GatherDims.WF ⟨3, ![A, B, C]⟩ ⟨2, ![R, 1]⟩ ⟨3, ![A, R, C]⟩ [0, 2] [1] [] [1] [] 1 ![A, 1, C]) :
    GatherDims ⟨3, ![A, B, C]⟩ ⟨2, ![R, 1]⟩ ⟨3, ![A, R, C]⟩ where
  offsetDims := [0, 2]
  collapsedSliceDims := [1]
  operandBatchingDims := []
  startIndicesBatchingDims := []
  startIndexMap := [1]
  indexVectorDim := 1
  sliceSizes := ![A, 1, C]
  wf := wf

section Axes

variable {A B C R : Nat}
  (wf : GatherDims.WF ⟨3, ![A, B, C]⟩ ⟨2, ![R, 1]⟩ ⟨3, ![A, R, C]⟩ [0, 2] [1] [] [1] [] 1 ![A, 1, C])

/-- Operand axis 0 is kept (neither collapsed nor batching). -/
theorem mem_sKept0 : (0 : Fin (⟨3, ![A, B, C]⟩ : Shape).rank) ∈ (midDims A B C R wf).sKept :=
  (GatherDims.mem_sKept _ _).mpr ⟨fun h => absurd (List.mem_singleton.mp h) (show ¬((0 : Fin 3) = 1) by decide), List.not_mem_nil⟩

/-- Operand axis 2 is kept. -/
theorem mem_sKept2 : (2 : Fin (⟨3, ![A, B, C]⟩ : Shape).rank) ∈ (midDims A B C R wf).sKept :=
  (GatherDims.mem_sKept _ _).mpr ⟨fun h => absurd (List.mem_singleton.mp h) (show ¬((2 : Fin 3) = 1) by decide), List.not_mem_nil⟩

/-- Operand axis 1 is collapsed, so not kept. -/
theorem not_mem_sKept1 : (1 : Fin (⟨3, ![A, B, C]⟩ : Shape).rank) ∉ (midDims A B C R wf).sKept :=
  fun h => ((GatherDims.mem_sKept _ _).mp h).1 (List.mem_singleton.mpr rfl)

/-- On operand axis 0 (an offset axis, not in the start index map) the operand coordinate is the result's axis-0
    coordinate. -/
theorem operand_axis0 {w : Nat} (idx : IVec ⟨2, ![R, 1]⟩ w) (a : Fin A) (r : Fin R) (c : Fin C) :
    (midDims A B C R wf).start (ix3 a r c) idx 0 + (midDims A B C R wf).batchCoord (ix3 a r c) 0
      + (midDims A B C R wf).offCoord (ix3 a r c) 0 = a.val := by
  rw [GatherDims.batchCoord_eq_zero _ _ _ List.not_mem_nil]
  unfold GatherDims.start
  rw [dif_neg (show (0 : Fin (⟨3, ![A, B, C]⟩ : Shape).rank) ∉ (midDims A B C R wf).startIndexMap from
    fun h => absurd (List.mem_singleton.mp h) (show ¬((0 : Fin 3) = 1) by decide))]
  unfold GatherDims.offCoord
  rw [dif_pos (mem_sKept0 wf)]
  simp only [Nat.zero_add, Nat.add_zero]
  rfl

/-- On operand axis 2 (the second offset axis, not in the start index map) the operand coordinate is the result's
    axis-2 coordinate. -/
theorem operand_axis2 {w : Nat} (idx : IVec ⟨2, ![R, 1]⟩ w) (a : Fin A) (r : Fin R) (c : Fin C) :
    (midDims A B C R wf).start (ix3 a r c) idx 2 + (midDims A B C R wf).batchCoord (ix3 a r c) 2
      + (midDims A B C R wf).offCoord (ix3 a r c) 2 = c.val := by
  rw [GatherDims.batchCoord_eq_zero _ _ _ List.not_mem_nil]
  unfold GatherDims.start
  rw [dif_neg (show (2 : Fin (⟨3, ![A, B, C]⟩ : Shape).rank) ∉ (midDims A B C R wf).startIndexMap from
    fun h => absurd (List.mem_singleton.mp h) (show ¬((2 : Fin 3) = 1) by decide))]
  unfold GatherDims.offCoord
  rw [dif_pos (mem_sKept2 wf)]
  simp only [Nat.zero_add, Nat.add_zero]
  rfl

/-- The start-indices index at which result entry `(a, r, c)` reads its one start-index component is `(r, 0)`. -/
theorem siIdx_eq (a : Fin A) (r : Fin R) (c : Fin C) :
    (midDims A B C R wf).siIdx (ix3 a r c)
        ⟨List.idxOf (1 : Fin (⟨3, ![A, B, C]⟩ : Shape).rank) (midDims A B C R wf).startIndexMap,
          List.idxOf_lt_length_iff.2 (List.mem_singleton.mpr rfl)⟩
      = ix2 r (0 : Fin 1) := by
  funext b; refine Fin.ext ?_
  match b with
  | ⟨0, _⟩ => rfl
  | ⟨1, _⟩ => rfl

/-- On operand axis 1 (collapsed, and the one axis the start index map names) the operand coordinate is the start
    index `idx[r, 0]` read signed and clamped into `[0, B − 1]`. -/
theorem operand_axis1 {w : Nat} (idx : IVec ⟨2, ![R, 1]⟩ w) (a : Fin A) (r : Fin R) (c : Fin C) :
    (midDims A B C R wf).start (ix3 a r c) idx 1 + (midDims A B C R wf).batchCoord (ix3 a r c) 1
      + (midDims A B C R wf).offCoord (ix3 a r c) 1 = min (idx (ix2 r (0 : Fin 1))).toInt.toNat (B - 1) := by
  rw [GatherDims.batchCoord_eq_zero _ _ _ List.not_mem_nil,
    GatherDims.offCoord_eq_zero _ _ _ (not_mem_sKept1 wf)]
  simp only [Nat.add_zero]
  unfold GatherDims.start
  rw [dif_pos (show (1 : Fin (⟨3, ![A, B, C]⟩ : Shape).rank) ∈ (midDims A B C R wf).startIndexMap from
    List.mem_singleton.mpr rfl)]
  rw [siIdx_eq wf a r c]
  rfl

end Axes

/-- THE GATHER READ AT `(a, r, c)`: the operand at row `a`, channel `c`, and on the middle axis the start index
    `idx[r, 0]` read signed and clamped into `[0, B − 1]`. -/
theorem gather_mid_apply {A B C R w : Nat} (hB : 0 < B)
    (wf : GatherDims.WF ⟨3, ![A, B, C]⟩ ⟨2, ![R, 1]⟩ ⟨3, ![A, R, C]⟩ [0, 2] [1] [] [1] [] 1 ![A, 1, C])
    (x : (⟨3, ![A, B, C]⟩ : Shape).Idx → α) (idx : IVec ⟨2, ![R, 1]⟩ w) (a : Fin A) (r : Fin R) (c : Fin C) :
    Host.gather (midDims A B C R wf) x idx (ix3 a r c)
      = x (ix3 a ⟨min (idx (ix2 r (0 : Fin 1))).toInt.toNat (B - 1), by omega⟩ c) := by
  unfold Host.gather
  congr 1
  funext ax
  refine Fin.ext ?_
  match ax with
  | ⟨0, _⟩ => exact operand_axis0 wf idx a r c
  | ⟨1, _⟩ => exact operand_axis1 wf idx a r c
  | ⟨2, _⟩ => exact operand_axis2 wf idx a r c

end Cert.Lib.GatherMid

end
-- ==== Proof.RefValue.lean ====
/-
  The reference's result is the specification's function.

  The first gather reads the input at the l-primary row of each m-primary position: the start indices are the literal
  table (the wrap `where (t < 0, t + 29, t)` has an all-false mask, so it is the table itself), every entry between 0
  and 28, so the clamp does nothing: row `p` of `x4 X` is row `toM p` of `X`. The concatenation of the three paths
  along the row axis at row `p` is the m = 0 path's row `p` for `p < 7`, the m = 1 path's row `p − 7` for `p < 19`, the
  m = 2 path's row `p − 19` otherwise: the specification's `mOut`. The last gather reads it at the m-primary position
  `fromM j` of l-primary row `j`.
-/
import proofs.«144405_j70824010711660_1_alg».proof.Proof.RefPaths
import proofs.«144405_j70824010711660_1_alg».proof.Proof.LibGatherMid
import Idealize.ShloMosaic.Lib.Pipeline.Value

noncomputable section

namespace Cert.ReferenceIdeal.RefValue

open Cert.ReferenceIdeal Cert.ReferenceIdeal.Gen Cert.ReferenceIdeal.RefTerm Idealize.ShloMosaic Idealize.ShloMosaic.ValueIdx Cert.Spec

variable (X : FVec Ideal S50000x29x64 .f32) (W0 : FVec Ideal S448x448 .f32) (b0 : FVec Ideal S448 .f32)
  (W1 : FVec Ideal S768x384 .f32) (W2 : FVec Ideal S640x320 .f32)

/-- A rank-1 index's row-major position is its one coordinate. -/
theorem rowMajor_ix1 (p : Fin 29) : S29.rowMajor (ix1 p) = p :=
  Fin.ext (Shape.rowMajor_val_one (ix1 p))

/-- The first table's column at row `p` is the literal table's entry `p`: the broadcast to a column reads the rank-1
    table at `p`, and the wrap's mask is false everywhere, so the select keeps its third operand, the table itself. -/
theorem idxTo_at (p : Fin 29) : idxTo (F := Ideal) (ix2 p (0 : Fin 1)) = lit0 p := by
  unfold idxTo
  refine (broadcastInDim_apply _ _ _ (ix2 p (0 : Fin 1)) (ix1 p) ?_).trans ?_
  · intro a
    match a with
    | ⟨0, _⟩ => rfl
  · refine (select_zero _ _).trans ?_
    exact congrArg lit0 (rowMajor_ix1 p)

/-- The second table's column at row `j` is the second literal table's entry `j`, for the same reasons. -/
theorem idxFrom_at (j : Fin 29) : idxFrom (F := Ideal) (ix2 j (0 : Fin 1)) = lit1 j := by
  unfold idxFrom
  refine (broadcastInDim_apply _ _ _ (ix2 j (0 : Fin 1)) (ix1 j) ?_).trans ?_
  · intro a
    match a with
    | ⟨0, _⟩ => rfl
  · refine (select_zero _ _).trans ?_
    exact congrArg lit1 (rowMajor_ix1 j)

/-- The first table's start index for m-primary position `p`, read signed and clamped, is `toM p`. -/
theorem idxTo_apply (p : Fin 29) :
    min (idxTo (F := Ideal) (ix2 p (0 : Fin 1))).toInt.toNat (29 - 1) = (toM p).val := by
  rw [idxTo_at]
  fin_cases p <;> decide

/-- The second table's start index for l-primary row `j`, read signed and clamped, is `fromM j`. -/
theorem idxFrom_apply (j : Fin 29) :
    min (idxFrom (F := Ideal) (ix2 j (0 : Fin 1))).toInt.toNat (29 - 1) = (fromM j).val := by
  rw [idxFrom_at]
  fin_cases j <;> decide

/-- The program's gather record is the gather along the middle axis of a `[50000, 29, 64]` array at 29 start indices. -/
theorem gather_eq_midDims :
    gather_S50000x29x64_S29x1_S50000x29x64_02_1_n_n_1_1_50000164
      = Cert.Lib.GatherMid.midDims 50000 29 64 29 Gen.gather_S50000x29x64_S29x1_S50000x29x64_02_1_n_n_1_1_50000164_wf := rfl

/-- The input in m-primary order: row `p` is row `toM p` of the input. -/
theorem x4_apply (e : Fin 50000) (p : Fin 29) (c : Fin 64) :
    x4 (F := Ideal) X (ix3 e p c) = X (ix3 e (toM p) c) := by
  unfold x4
  rw [gather_eq_midDims]
  refine (Cert.Lib.GatherMid.gather_mid_apply (by decide) _ X (idxTo (F := Ideal)) e p c).trans ?_
  exact congrArg (fun r : Fin 29 => X (ix3 e r c)) (Fin.ext (idxTo_apply p))

/-- Rows 0 to 6 of the m-primary result are the m = 0 path's rows. -/
theorem mAll_piece0 (e : Fin 50000) (p : Fin 29) (c : Fin 64) (r : Fin 7) (hr : r.val = p.val) :
    mAll (F := Ideal) X W0 b0 W1 W2 (ix3 e p c) = stM0 (F := Ideal) (x4 X) W0 b0 (ix3 e r c) := by
  unfold mAll
  refine concatenate_apply_piece (1 : Fin 3)
    [⟨S50000x7x64, stM0 (F := Ideal) (x4 X) W0 b0⟩, ⟨S50000x12x64, stM1 (F := Ideal) (x4 X) W1⟩, ⟨S50000x10x64, stM2 (F := Ideal) (x4 X) W2⟩]
    _ (ix3 e p c) 0 (by show (0 : Nat) < 3; omega) S50000x7x64 (stM0 (F := Ideal) (x4 X) W0 b0) rfl rfl 0 rfl (ix3 e r c) ?_ ?_
  · intro b hb
    match b with
    | ⟨0, _⟩ => rfl
    | ⟨1, _⟩ => exact absurd rfl hb
    | ⟨2, _⟩ => rfl
  · show 0 + r.val = p.val
    omega

/-- Rows 7 to 18 of the m-primary result are the m = 1 path's rows. -/
theorem mAll_piece1 (e : Fin 50000) (p : Fin 29) (c : Fin 64) (r : Fin 12) (hr : 7 + r.val = p.val) :
    mAll (F := Ideal) X W0 b0 W1 W2 (ix3 e p c) = stM1 (F := Ideal) (x4 X) W1 (ix3 e r c) := by
  unfold mAll
  refine concatenate_apply_piece (1 : Fin 3)
    [⟨S50000x7x64, stM0 (F := Ideal) (x4 X) W0 b0⟩, ⟨S50000x12x64, stM1 (F := Ideal) (x4 X) W1⟩, ⟨S50000x10x64, stM2 (F := Ideal) (x4 X) W2⟩]
    _ (ix3 e p c) 1 (by show (1 : Nat) < 3; omega) S50000x12x64 (stM1 (F := Ideal) (x4 X) W1) rfl rfl 7 rfl (ix3 e r c) ?_ ?_
  · intro b hb
    match b with
    | ⟨0, _⟩ => rfl
    | ⟨1, _⟩ => exact absurd rfl hb
    | ⟨2, _⟩ => rfl
  · exact hr

/-- Rows 19 to 28 of the m-primary result are the m = 2 path's rows. -/
theorem mAll_piece2 (e : Fin 50000) (p : Fin 29) (c : Fin 64) (r : Fin 10) (hr : 19 + r.val = p.val) :
    mAll (F := Ideal) X W0 b0 W1 W2 (ix3 e p c) = stM2 (F := Ideal) (x4 X) W2 (ix3 e r c) := by
  unfold mAll
  refine concatenate_apply_piece (1 : Fin 3)
    [⟨S50000x7x64, stM0 (F := Ideal) (x4 X) W0 b0⟩, ⟨S50000x12x64, stM1 (F := Ideal) (x4 X) W1⟩, ⟨S50000x10x64, stM2 (F := Ideal) (x4 X) W2⟩]
    _ (ix3 e p c) 2 (by show (2 : Nat) < 3; omega) S50000x10x64 (stM2 (F := Ideal) (x4 X) W2) rfl rfl 19 rfl (ix3 e r c) ?_ ?_
  · intro b hb
    match b with
    | ⟨0, _⟩ => rfl
    | ⟨1, _⟩ => exact absurd rfl hb
    | ⟨2, _⟩ => rfl
  · exact hr

/-- The m-primary result at row `p` is the specification's `mOut`. -/
theorem mAll_apply (e : Fin 50000) (p : Fin 29) (c : Fin 64) :
    mAll (F := Ideal) X W0 b0 W1 W2 (ix3 e p c) = mOut (E := 50000) X W0 b0 W1 W2 e p c := by
  unfold mOut
  by_cases h0 : p.val < 7
  · rw [dif_pos h0, mAll_piece0 X W0 b0 W1 W2 e p c ⟨p.val, h0⟩ rfl]
    exact RefPaths.stM0_apply X (x4 X) (x4_apply X) W0 b0 e ⟨p.val, h0⟩ c
  · rw [dif_neg h0]
    by_cases h1 : p.val < 13
    · rw [dif_pos h1, mAll_piece1 X W0 b0 W1 W2 e p c ⟨p.val - 7, by omega⟩ (by show 7 + (p.val - 7) = p.val; omega)]
      exact RefPaths.stM1_re_apply X (x4 X) (x4_apply X) W1 e ⟨p.val - 7, by omega⟩ c
    · rw [dif_neg h1]
      by_cases h2 : p.val < 19
      · rw [dif_pos h2,
          mAll_piece1 X W0 b0 W1 W2 e p c ⟨6 + (p.val - 13), by omega⟩ (by show 7 + (6 + (p.val - 13)) = p.val; omega)]
        exact RefPaths.stM1_im_apply X (x4 X) (x4_apply X) W1 e ⟨p.val - 13, by omega⟩ c
      · rw [dif_neg h2]
        have hp := p.isLt
        by_cases h3 : p.val < 24
        · rw [dif_pos h3,
            mAll_piece2 X W0 b0 W1 W2 e p c ⟨p.val - 19, by omega⟩ (by show 19 + (p.val - 19) = p.val; omega)]
          exact RefPaths.stM2_re_apply X (x4 X) (x4_apply X) W2 e ⟨p.val - 19, by omega⟩ c
        · rw [dif_neg h3,
            mAll_piece2 X W0 b0 W1 W2 e p c ⟨5 + (p.val - 24), by omega⟩ (by show 19 + (5 + (p.val - 24)) = p.val; omega)]
          exact RefPaths.stM2_im_apply X (x4 X) (x4_apply X) W2 e ⟨p.val - 24, by omega⟩ c

/-- The reference's result at an entry. -/
theorem refOut_apply (e : Fin 50000) (j : Fin 29) (c : Fin 64) :
    refOut (F := Ideal) X W0 b0 W1 W2 (ix3 e j c) = Gat (E := 50000) X W0 b0 W1 W2 e j c := by
  unfold refOut Gat
  rw [gather_eq_midDims]
  refine (Cert.Lib.GatherMid.gather_mid_apply (by decide) _ (mAll (F := Ideal) X W0 b0 W1 W2) (idxFrom (F := Ideal)) e j c).trans ?_
  refine (congrArg (fun r : Fin 29 => mAll (F := Ideal) X W0 b0 W1 W2 (ix3 e r c)) (Fin.ext (idxFrom_apply j))).trans ?_
  exact mAll_apply X W0 b0 W1 W2 e (fromM j) c

/-- The reference's result is the specification's array. -/
theorem refOut_eq : refOut (F := Ideal) X W0 b0 W1 W2 = G (E := 50000) X W0 b0 W1 W2 := by
  funext y
  rw [eq_ix3 y]
  exact refOut_apply X W0 b0 W1 W2 (y 0) (y 1) (y 2)

end Cert.ReferenceIdeal.RefValue

end
-- ==== Proof.lean ====
/-
  The kernel and its reference compute the same array over the extended reals.

  Both programs take 50000 edges with 29 coefficient rows of 64 channels each, reorder the rows from l-primary to
  m-primary order, apply one linear map to the 7 rows with m = 0 (with a bias) and a complex-structured pair of linear
  maps to the real and imaginary rows with m = 1 and with m = 2 (real part `r·Wa − i·Wb`, imaginary part
  `i·Wa + r·Wb`), and reorder the result rows back. The kernel does it 400 edges at a time, selecting the rows by slices
  at their literal positions and multiplying by the transposed weights in bf16, which over the extended reals is the
  identity; the reference does it on whole arrays with two gathers at literal index tables, reshapes and an einsum.
  `Spec.G` is the function both compute, entry by entry; `KernelIdeal.Array.run` is the kernel's run ending at it,
  `ReferenceIdeal.RefRun.run` the reference's run ending at `RefTerm.refOut`, and `RefValue.refOut_eq` says that is `G`.
  No step uses a law that fails at infinite values, so the precondition is never opened. The two kernel programs'
  frames are the generated ones; the reference's frame is its run with the result dropped; the idealization rewrote no
  operation, so there is nothing to preserve.
-/
import proofs.«144405_j70824010711660_1_alg».proof.Defs
import proofs.«144405_j70824010711660_1_alg».proof.Proof.Gen.Kernel
import proofs.«144405_j70824010711660_1_alg».proof.Proof.Gen.Kernel.Skeleton
import proofs.«144405_j70824010711660_1_alg».proof.Proof.Gen.Kernel.Launch
import proofs.«144405_j70824010711660_1_alg».proof.Proof.Gen.Kernel.Points
import proofs.«144405_j70824010711660_1_alg».proof.Proof.Gen.Kernel.Frame
import proofs.«144405_j70824010711660_1_alg».proof.Proof.Gen.KernelIdeal
import proofs.«144405_j70824010711660_1_alg».proof.Proof.Gen.KernelIdeal.Skeleton
import proofs.«144405_j70824010711660_1_alg».proof.Proof.Gen.KernelIdeal.Launch
import proofs.«144405_j70824010711660_1_alg».proof.Proof.Gen.KernelIdeal.Points
import proofs.«144405_j70824010711660_1_alg».proof.Proof.Gen.KernelIdeal.Frame
import proofs.«144405_j70824010711660_1_alg».proof.Proof.Gen.ReferenceIdeal
import proofs.«144405_j70824010711660_1_alg».proof.Proof.Gen.Pre_finite_inputs
import proofs.«144405_j70824010711660_1_alg».proof.Proof.KernelArray
import proofs.«144405_j70824010711660_1_alg».proof.Proof.RefRun
import proofs.«144405_j70824010711660_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the specification's array of those arguments. -/
theorem algebraic : Cert.algebraic_KernelIdeal_ReferenceIdeal := by
  intro m ρ m' ρ' _ hagree
  refine ⟨fun c => Cert.KernelIdeal.Array.Gm m c, Cert.KernelIdeal.Array.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.2.1, (hagree c).2.2.2.1, (hagree c).2.2.2.2.1, (hagree c).2.2.2.2.2]
  exact Cert.ReferenceIdeal.RefValue.refOut_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
